-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x600000 : Shape := ⟨2, ![1, 600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x600000_S1x600000_0_0 : S2x600000.Slices ![0, 0] S1x600000
  shapeCasts_S1x600000_S600000 : S1x600000.ShapeCasts S600000

variable [Facts]

def fn_part2 {F : FTy → Type} [FloatOps F] (main_v28 : IVec S_ 1) (main_v32 : IVec S600000 1) (main_v34 : IVec S600000 32) : IVec S_ 1 :=
  let main_c_11 : IVec S_ 32 := constantI S_ 32 100000#32
  let main_v35 : IVec S600000 32 := broadcastInDim S600000 ![] bcast_S_S600000 main_c_11
  let main_v36 : IVec S600000 1 := cmpi .slt main_v34 main_v35
  let main_v37 : IVec S600000 1 := andi main_v32 main_v36
  let main_c_12 : IVec S_ 1 := constantI S_ 1 1#1
  let main_v38 : IVec S_ 1 := (fun x v => Host.reduce IntOp.andi x v reducesTo_S600000_S_d0 h_S_) main_v37 main_c_12
  let main_v39 : IVec S_ 1 := andi main_v28 main_v38
  main_v39

def fn_part1 {F : FTy → Type} [FloatOps F] (main_arg1 : IVec S2x600000 32) (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : IVec S1x600000 32 := (extractStridedSlice S1x600000 ![0, 0] · slices_S2x600000_S1x600000_0_0) main_arg1
  let main_v30 : IVec S600000 32 := shapeCast S600000 main_v29 shapeCasts_S1x600000_S600000
  let main_c_10 : IVec S_ 32 := constantI S_ 32 4294867296#32
  let main_v31 : IVec S600000 32 := broadcastInDim S600000 ![] bcast_S_S600000 main_c_10
  let main_v32 : IVec S600000 1 := cmpi .sge main_v30 main_v31
  let main_v33 : IVec S1x600000 32 := (extractStridedSlice S1x600000 ![0, 0] · slices_S2x600000_S1x600000_0_0) main_arg1
  let main_v34 : IVec S600000 32 := shapeCast S600000 main_v33 shapeCasts_S1x600000_S600000
  fn_part2 (F := F) main_v28 main_v32 main_v34

def fn {F : FTy → Type} [FloatOps F] (main_arg0 : FVec F S100000x128 .f32) (main_arg1 : IVec S2x600000 32) (main_arg2 : FVec F S600000 .f32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000x1 : Shape := ⟨2, ![600000, 1]⟩
abbrev S1x128 : Shape := ⟨2, ![1, 128]⟩
abbrev S1x64 : Shape := ⟨2, ![1, 64]⟩
abbrev S2000x128 : Shape := ⟨2, ![2000, 128]⟩
abbrev S_ : Shape := ⟨0, ![]⟩
abbrev S1 : Shape := ⟨1, ![1]⟩
abbrev S1x1 : Shape := ⟨2, ![1, 1]⟩
abbrev S600000x128 : Shape := ⟨2, ![600000, 128]⟩
abbrev S3000x128 : Shape := ⟨2, ![3000, 128]⟩
abbrev S3000x1 : Shape := ⟨2, ![3000, 1]⟩
abbrev S100000x64 : Shape := ⟨2, ![100000, 64]⟩
abbrev S2000x64 : Shape := ⟨2, ![2000, 64]⟩
abbrev S600000x64 : Shape := ⟨2, ![600000, 64]⟩
abbrev S3000x64 : Shape := ⟨2, ![3000, 64]⟩

abbrev nBuf : Space → Nat
  | .hbm => 73
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S600000x1, .f32⟩
  | .hbm, ⟨12, _⟩ => ⟨S1x128, .f32⟩
  | .hbm, ⟨13, _⟩ => ⟨S1x64, .f32⟩
  | .hbm, ⟨14, _⟩ => ⟨S100000x128, .f32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S1, .i32⟩
  | .hbm, ⟨24, _⟩ => ⟨S_, .i32⟩
  | .hbm, ⟨25, _⟩ => ⟨S600000x1, .i32⟩
  | .hbm, ⟨26, _⟩ => ⟨S600000x1, .i1⟩
  | .hbm, ⟨27, _⟩ => ⟨S1x1, .i32⟩
  | .hbm, ⟨28, _⟩ => ⟨S600000x1, .i32⟩
  | .hbm, ⟨29, _⟩ => ⟨S600000x1, .i1⟩
  | .hbm, ⟨30, _⟩ => ⟨S600000x1, .i1⟩
  | .hbm, ⟨31, _⟩ => ⟨S_, .i1⟩
  | .hbm, ⟨32, _⟩ => ⟨S600000, .i1⟩
  | .hbm, ⟨33, _⟩ => ⟨S600000x128, .f32⟩
  | .hbm, ⟨34, _⟩ => ⟨S600000x128, .i1⟩
  | .hbm, ⟨35, _⟩ => ⟨S_, .f32⟩
  | .hbm, ⟨36, _⟩ => ⟨S600000x128, .f32⟩
  | .hbm, ⟨37, _⟩ => ⟨S600000x128, .f32⟩
  | .hbm, ⟨38, _⟩ => ⟨S600000x128, .f32⟩
  | .hbm, ⟨39, _⟩ => ⟨S_, .f32⟩
  | .hbm, ⟨40, _⟩ => ⟨S100000x128, .f32⟩
  | .hbm, ⟨41, _⟩ => ⟨S600000x1, .i32⟩
  | .hbm, ⟨42, _⟩ => ⟨S100000x128, .f32⟩
  | .hbm, ⟨43, _⟩ => ⟨S100000x64, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S1, .i32⟩
  | .hbm, ⟨53, _⟩ => ⟨S_, .i32⟩
  | .hbm, ⟨54, _⟩ => ⟨S600000x1, .i32⟩
  | .hbm, ⟨55, _⟩ => ⟨S600000x1, .i1⟩
  | .hbm, ⟨56, _⟩ => ⟨S1x1, .i32⟩
  | .hbm, ⟨57, _⟩ => ⟨S600000x1, .i32⟩
  | .hbm, ⟨58, _⟩ => ⟨S600000x1, .i1⟩
  | .hbm, ⟨59, _⟩ => ⟨S600000x1, .i1⟩
  | .hbm, ⟨60, _⟩ => ⟨S_, .i1⟩
  | .hbm, ⟨61, _⟩ => ⟨S600000, .i1⟩
  | .hbm, ⟨62, _⟩ => ⟨S600000x64, .f32⟩
  | .hbm, ⟨63, _⟩ => ⟨S600000x64, .i1⟩
  | .hbm, ⟨64, _⟩ => ⟨S_, .f32⟩
  | .hbm, ⟨65, _⟩ => ⟨S600000x64, .f32⟩
  | .hbm, ⟨66, _⟩ => ⟨S600000x64, .f32⟩
  | .hbm, ⟨67, _⟩ => ⟨S600000x64, .f32⟩
  | .hbm, ⟨68, _⟩ => ⟨S_, .f32⟩
  | .hbm, ⟨69, _⟩ => ⟨S100000x64, .f32⟩
  | .hbm, ⟨70, _⟩ => ⟨S600000x1, .i32⟩
  | .hbm, ⟨71, _⟩ => ⟨S100000x64, .f32⟩
  | .hbm, ⟨72, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S3000x128, .f32⟩
  | .local _ .vmem, ⟨6, _⟩ => ⟨S3000x128, .f32⟩
  | .local _ .vmem, ⟨7, _⟩ => ⟨S3000x1, .f32⟩
  | .local _ .vmem, ⟨8, _⟩ => ⟨S3000x1, .f32⟩
  | .local _ .vmem, ⟨9, _⟩ => ⟨S3000x128, .f32⟩
  | .local _ .vmem, ⟨10, _⟩ => ⟨S3000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S128x64, .f32⟩
  | .local _ .vmem, ⟨15, _⟩ => ⟨S2000x64, .f32⟩
  | .local _ .vmem, ⟨16, _⟩ => ⟨S2000x64, .f32⟩
  | .local _ .vmem, ⟨17, _⟩ => ⟨S3000x64, .f32⟩
  | .local _ .vmem, ⟨18, _⟩ => ⟨S3000x64, .f32⟩
  | .local _ .vmem, ⟨19, _⟩ => ⟨S3000x1, .f32⟩
  | .local _ .vmem, ⟨20, _⟩ => ⟨S3000x1, .f32⟩
  | .local _ .vmem, ⟨21, _⟩ => ⟨S3000x64, .f32⟩
  | .local _ .vmem, ⟨22, _⟩ => ⟨S3000x64, .f32⟩
  | .local _ .vmem, ⟨23, _⟩ => ⟨S2000x64, .f32⟩
  | .local _ .vmem, ⟨24, _⟩ => ⟨S2000x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v8 : Ref sig .tc := ⟨.hbm, 37, rfl⟩
abbrev main_v9 : Ref sig .tc := ⟨.hbm, 38, rfl⟩
abbrev main_cst : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v14 : Ref sig .tc := ⟨.hbm, 66, rfl⟩
abbrev main_v15 : Ref sig .tc := ⟨.hbm, 67, rfl⟩
abbrev main_cst_0 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S3000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S600000_S600000x1 : S600000.ShapeCasts S600000x1
  shapeCasts_S128_S1x128 : S128.ShapeCasts S1x128
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  inb_S3000x1_S3000x1_0_0 : ∀ a, (![0, 0] : Fin 2 → Nat) a + S3000x1.size a ≤ S3000x1.size a
  h_S3000x1 : 0 < S3000x1.numel
  shapeCasts_S3000x1_S3000x1 : S3000x1.ShapeCasts S3000x1
  broadcasts_S3000x1_S3000x128 : S3000x1.Broadcasts S3000x128
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  bcast_S_S100000x128 : S_.BroadcastsInDim S100000x128 (![] : Fin 0 → Fin S100000x128.rank)
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S600000_S600000x64_0 : S600000.BroadcastsInDim S600000x64 (![0] : Fin 1 → Fin S600000x64.rank)
  bcast_S_S600000x64 : S_.BroadcastsInDim S600000x64 (![] : Fin 0 → Fin S600000x64.rank)
  broadcasts_S3000x1_S3000x64 : S3000x1.Broadcasts S3000x64
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  bcast_S_S100000x64 : S_.BroadcastsInDim S100000x64 (![] : Fin 0 → Fin S100000x64.rank)
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x64_S2000x64_1_0_0_1_n_n_wf : DotDims.WF S2000x128 S128x64 S2000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x128.size a ≤ S600000x128.size a
  hwx1_0 : ∀ i : grid1.Coords, EltTy.bits .f32 = 32 ∨ (Rect.block (s := S600000x128) S3000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x1.size a ≤ S600000x1.size a
  hwx1_1 : ∀ i : grid1.Coords, EltTy.bits .f32 = 32 ∨ (Rect.block (s := S600000x1) S3000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x128.size a ≤ S600000x128.size a
  hwx1_2 : ∀ i : grid1.Coords, EltTy.bits .f32 = 32 ∨ (Rect.block (s := S600000x128) S3000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3000x64.size a ≤ S600000x64.size a
  hwx3_0 : ∀ i : grid3.Coords, EltTy.bits .f32 = 32 ∨ (Rect.block (s := S600000x64) S3000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3000x1.size a ≤ S600000x1.size a
  hwx3_1 : ∀ i : grid3.Coords, EltTy.bits .f32 = 32 ∨ (Rect.block (s := S600000x1) S3000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S3000x64.size a ≤ S600000x64.size a
  hwx3_2 : ∀ i : grid3.Coords, EltTy.bits .f32 = 32 ∨ (Rect.block (s := S600000x64) S3000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S100000x64.size a
  hwx4_2 : ∀ i : grid4.Coords, EltTy.bits .f32 = 32 ∨ (Rect.block (s := S100000x64) S2000x64.size (cc4_transform_2 i) (hinb4_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S3000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S3000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S3000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v12) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v14) S3000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S3000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S3000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v18) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v19) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S100000x64 : Shape := ⟨2, ![100000, 64]⟩
abbrev S600000x64 : Shape := ⟨2, ![600000, 64]⟩
abbrev S1x64 : Shape := ⟨2, ![1, 64]⟩

abbrev nBuf : Space → Nat
  | .hbm => 58
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S600000x1, .f32⟩
  | .hbm, ⟨22, _⟩ => ⟨S600000x128, .f32⟩
  | .hbm, ⟨23, _⟩ => ⟨S600000x128, .f32⟩
  | .hbm, ⟨24, _⟩ => ⟨S_, .f32⟩
  | .hbm, ⟨25, _⟩ => ⟨S100000x128, .f32⟩
  | .hbm, ⟨26, _⟩ => ⟨S600000x1, .i32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x64, .f32⟩
  | .hbm, ⟨35, _⟩ => ⟨S1x600000, .i32⟩
  | .hbm, ⟨36, _⟩ => ⟨S600000, .i32⟩
  | .hbm, ⟨37, _⟩ => ⟨S1x600000, .i32⟩
  | .hbm, ⟨38, _⟩ => ⟨S600000, .i32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x64, .f32⟩
  | .hbm, ⟨48, _⟩ => ⟨S600000x1, .f32⟩
  | .hbm, ⟨49, _⟩ => ⟨S600000x64, .f32⟩
  | .hbm, ⟨50, _⟩ => ⟨S600000x64, .f32⟩
  | .hbm, ⟨51, _⟩ => ⟨S_, .f32⟩
  | .hbm, ⟨52, _⟩ => ⟨S100000x64, .f32⟩
  | .hbm, ⟨53, _⟩ => ⟨S600000x1, .i32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_1 : Ref sig .tc := ⟨.hbm, 39, rfl⟩
abbrev main_v27 : Ref sig .tc := ⟨.hbm, 40, rfl⟩
abbrev main_v28 : Ref sig .tc := ⟨.hbm, 41, rfl⟩
abbrev main_c_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S600000x1_S600000x64_0_1 : S600000x1.BroadcastsInDim S600000x64 (![0, 1] : Fin 2 → Fin S600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x64_S100000x64_1_0_0_1_n_n_wf : DotDims.WF S100000x128 S128x64 S100000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf

class Facts : Prop extends Facts₀ where

variable [Facts]
-- ==== Proof.HostOps.lean ====
/-
  The host operations between the launches, as functions of arrays.

  A take of rows `h[src]` is printed in three steps.  The row numbers are wrapped (a negative number counts from
  the end: `src + 100000`) and laid out as a column (`wrapIdx`); the gather reads, for each edge, the row its
  (clamped) number names; and a range test `0 ≤ idx ≤ 99999` of every wrapped number (`inRangeMask`) chooses between
  the gathered row and a fill value, so that a row number out of range yields the fill instead of a clamped row
  (`takeRows128`, `takeRows64`).  The two rows of the edge list are the source and the destination numbers
  (`srcOf`, `dstOf`).
-/
import proofs.«429833_j50173807952427_1_alg».proof.Proof.Gen.KernelIdeal

noncomputable section

namespace Cert.KernelIdeal.HostOps

open Cert.KernelIdeal Cert.KernelIdeal.Gen Idealize.ShloMosaic

variable {F : FTy → Type} [FloatOps F]

/-- Row 0 of the edge list, as a vector of 600000 words: the source node of each edge. -/
def srcOf (ei : IVec S2x600000 32) : IVec S600000 32 :=
  shapeCast S600000 (extractStridedSlice S1x600000 ![0, 0] ei slices_S2x600000_S1x600000_0_0) shapeCasts_S1x600000_S600000

/-- Row 1 of the edge list: the destination node of each edge. -/
def dstOf (ei : IVec S2x600000 32) : IVec S600000 32 :=
  shapeCast S600000 (extractStridedSlice S1x600000 ![1, 0] ei slices_S2x600000_S1x600000_1_0) shapeCasts_S1x600000_S600000

/-- The wrapped row numbers as a column: entry (e, 0) is `src e + 100000` where `src e < 0` and `src e` otherwise. -/
def wrapIdx (src : IVec S600000 32) : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 100000#32))) src)

/-- The range test of a column of row numbers: bit e is set when `0 ≤ idx (e, 0) ≤ 99999`. -/
def inRangeMask (idx : IVec S600000x1 32) : IVec S600000 1 :=
  Host.reduce IntOp.andi
    (andi (cmpi .sge idx (broadcastInDim S600000x1 ![] bcast_S_S600000x1 (constantI S_ 32 0#32)))
      (cmpi .sle idx (broadcastInDim S600000x1 ![0, 1] bcast_S1x1_S600000x1_0_1
        (broadcastInDim S1x1 ![1] bcast_S1_S1x1_1 (constantI S1 32 99999#32)))))
    (constantI S_ 1 1#1) reducesTo_S600000x1_S600000_d1 h_S_

/-- The take of rows of a 128-column array with fill: the gathered row where the range test passes. -/
def takeRows128 (h : FVec F S100000x128 .f32) (src : IVec S600000 32) : FVec F S600000x128 .f32 :=
  select (broadcastInDim S600000x128 ![0] bcast_S600000_S600000x128_0 (inRangeMask (wrapIdx src)))
    (Host.gather gather_S100000x128_S600000x1_S600000x128_1_0_n_n_0_1_1128 h (wrapIdx src))
    (broadcastInDim S600000x128 ![] bcast_S_S600000x128 (constant S_ .f32 0x7FC00000#32))

/-- The take of rows of a 64-column array with fill. -/
def takeRows64 (h : FVec F S100000x64 .f32) (src : IVec S600000 32) : FVec F S600000x64 .f32 :=
  select (broadcastInDim S600000x64 ![0] bcast_S600000_S600000x64_0 (inRangeMask (wrapIdx src)))
    (Host.gather gather_S100000x64_S600000x1_S600000x64_1_0_n_n_0_1_164 h (wrapIdx src))
    (broadcastInDim S600000x64 ![] bcast_S_S600000x64 (constant S_ .f32 0x7FC00000#32))

end Cert.KernelIdeal.HostOps

end
-- ==== Proof.Carry.lean ====
/-
  What the buffers hold at the boundaries between @main's segments.

  @main is ten segments: a stretch of host operations, then a launch, five times over.  The frame names the
  buffer contents at the boundaries W0 (launch) … W10 (return) as a fold.  A buffer that a segment does not write
  keeps its contents across it, so the small arrays the first stretch prepares — the source and destination node
  numbers, the weight column, the two bias rows — and the argument arrays can be read at the later boundary where a
  launch or a host operation consumes them.  Each lemma here says what one buffer holds at one boundary, in
  terms of the launch memory; each is the lemma for the boundary before it, carried across one segment.
-/
import proofs.«429833_j50173807952427_1_alg».proof.Proof.Gen.KernelIdeal.Frame
import proofs.«429833_j50173807952427_1_alg».proof.Proof.HostOps
import Idealize.ShloMosaic.Lib.StableHlo.Run

set_option maxRecDepth 16384

noncomputable section

namespace Cert.KernelIdeal.Carry

open Cert.KernelIdeal Cert.KernelIdeal.Gen Cert.KernelIdeal.HostOps
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## After the first stretch (W1): the prepared arrays, and the arguments the first launch reads -/

theorem W1_v1 : W1 m ρ c (Proc.devRef .tc main_v1) = srcOf (m ((c : Thread nD τ).loc main_arg1)) := by
  show StableHlo.after hostOps0 (W0 m ρ c) (Proc.devRef .tc main_v1) = _
  after_results
  rfl
theorem W1_v3 : W1 m ρ c (Proc.devRef .tc main_v3) = dstOf (m ((c : Thread nD τ).loc main_arg1)) := by
  show StableHlo.after hostOps0 (W0 m ρ c) (Proc.devRef .tc main_v3) = _
  after_results
  rfl
theorem W1_v4 : W1 m ρ c (Proc.devRef .tc main_v4) = shapeCast S600000x1 (m ((c : Thread nD τ).loc main_arg2)) shapeCasts_S600000_S600000x1 := by
  show StableHlo.after hostOps0 (W0 m ρ c) (Proc.devRef .tc main_v4) = _
  after_results
  rfl
theorem W1_v5 : W1 m ρ c (Proc.devRef .tc main_v5) = shapeCast S1x128 (m ((c : Thread nD τ).loc main_arg4)) shapeCasts_S128_S1x128 := by
  show StableHlo.after hostOps0 (W0 m ρ c) (Proc.devRef .tc main_v5) = _
  after_results
  rfl
theorem W1_v6 : W1 m ρ c (Proc.devRef .tc main_v6) = shapeCast S1x64 (m ((c : Thread nD τ).loc main_arg6)) shapeCasts_S64_S1x64 := by
  show StableHlo.after hostOps0 (W0 m ρ c) (Proc.devRef .tc main_v6) = _
  after_results
  rfl
theorem W1_arg0 : W1 m ρ c (Proc.devRef .tc main_arg0) = m ((c : Thread nD τ).loc main_arg0) := by
  show StableHlo.after hostOps0 (W0 m ρ c) (Proc.devRef .tc main_arg0) = _
  after_results
theorem W1_arg3 : W1 m ρ c (Proc.devRef .tc main_arg3) = m ((c : Thread nD τ).loc main_arg3) := by
  show StableHlo.after hostOps0 (W0 m ρ c) (Proc.devRef .tc main_arg3) = _
  after_results
theorem W1_arg5 : W1 m ρ c (Proc.devRef .tc main_arg5) = m ((c : Thread nD τ).loc main_arg5) := by
  show StableHlo.after hostOps0 (W0 m ρ c) (Proc.devRef .tc main_arg5) = _
  after_results

end Cert.KernelIdeal.Carry

end
-- ==== Proof.HostStages.lean ====
/-
  The host stretches between the launches, read as operations on whole arrays, and the three small reshapes the
  kernel feeds its launches with.

  Each take of rows and each scatter-add is one stretch of host operations; what the stretch leaves in its result
  buffer is the take (with fill) resp. the scatter-add of what the buffers it reads held when the stretch began.
  The weight vector reshaped to a column holds the weight of edge e at (e, 0); a bias vector reshaped to a row holds
  entry k at (0, k): these are the entries the reference reads through its broadcasts of the same vectors.
-/
import proofs.«429833_j50173807952427_1_alg».proof.Proof.Gen.KernelIdeal.Frame
import proofs.«429833_j50173807952427_1_alg».proof.Proof.HostOps
import proofs.«429833_j50173807952427_1_alg».proof.Proof.Gen.ReferenceIdeal.Read
import Idealize.ShloMosaic.Lib.StableHlo.Run
import Idealize.ShloMosaic.Lib.Pipeline.Value

set_option maxRecDepth 16384

noncomputable section

namespace Cert.KernelIdeal.HostStages

open Cert.KernelIdeal Cert.KernelIdeal.Gen Cert.KernelIdeal.HostOps
open Idealize.ShloMosaic Idealize.ShloMosaic.TcCoe Idealize.SL.Sem Idealize.ShloMosaic.StableHlo
open Cert.ReferenceIdeal.Read (idx_main_v12 idx_main_v13 idx_main_v34 idx_main_v35 idx_main_v18 idx_main_v19 idx_main_v40 idx_main_v41)

variable {F : FTy → Type} [FloatOps F]
variable (m : (ℓ : Loc nD τ sig) → Buf (Elt F) ℓ) (ρ : Dev nD → PrngReg) (c : Dev nD)

/-! ## The four stretches -/

set_option maxHeartbeats 2000000 in
/-- The first take leaves the rows of the first product at the source nodes, with fill. -/
theorem take1_eq : W3 m ρ c (Proc.devRef .tc main_v8)
    = takeRows128 (W2 m ρ c (Proc.devRef .tc main_v7)) (W2 m ρ c (Proc.devRef .tc main_v1)) := by
  generalize hX : takeRows128 (W2 m ρ c (Proc.devRef .tc main_v7)) (W2 m ρ c (Proc.devRef .tc main_v1)) = X
  show StableHlo.after hostOps1 (W2 m ρ c) (Proc.devRef .tc main_v8) = X
  after_results_simp
  simp only [StableHlo.TRef.toBuf, StableHlo.TRef.ofBuf, cast_eq]
  rw [← hX]
  unfold takeRows128 inRangeMask wrapIdx
  rfl

/-- The first scatter-add: onto zeros, at the destination nodes as a column, of the scaled rows. -/
theorem agg1_eq : W5 m ρ c (Proc.devRef .tc main_v12)
    = Host.scatterAdd scatter_S100000x128_S600000x1_S600000x128_1_0_0_1
        (broadcastInDim S100000x128 ![] bcast_S_S100000x128 (constant S_ .f32 0x00000000#32))
        (broadcastInDim S600000x1 ![0] bcast_S600000_S600000x1_0 (W4 m ρ c (Proc.devRef .tc main_v3)))
        (W4 m ρ c (Proc.devRef .tc main_v9)) := by
  show StableHlo.after hostOps2 (W4 m ρ c) (Proc.devRef .tc main_v12) = _
  after_results

set_option maxHeartbeats 2000000 in
/-- The second take leaves the rows of the second product at the source nodes, with fill. -/
theorem take2_eq : W7 m ρ c (Proc.devRef .tc main_v14)
    = takeRows64 (W6 m ρ c (Proc.devRef .tc main_v13)) (W6 m ρ c (Proc.devRef .tc main_v1)) := by
  generalize hX : takeRows64 (W6 m ρ c (Proc.devRef .tc main_v13)) (W6 m ρ c (Proc.devRef .tc main_v1)) = X
  show StableHlo.after hostOps3 (W6 m ρ c) (Proc.devRef .tc main_v14) = X
  after_results_simp
  simp only [StableHlo.TRef.toBuf, StableHlo.TRef.ofBuf, cast_eq]
  rw [← hX]
  unfold takeRows64 inRangeMask wrapIdx
  rfl

/-- The second scatter-add. -/
theorem agg2_eq : W9 m ρ c (Proc.devRef .tc main_v18)
    = Host.scatterAdd scatter_S100000x64_S600000x1_S600000x64_1_0_0_1
        (broadcastInDim S100000x64 ![] bcast_S_S100000x64 (constant S_ .f32 0x00000000#32))
        (broadcastInDim S600000x1 ![0] bcast_S600000_S600000x1_0 (W8 m ρ c (Proc.devRef .tc main_v3)))
        (W8 m ρ c (Proc.devRef .tc main_v15)) := by
  show StableHlo.after hostOps4 (W8 m ρ c) (Proc.devRef .tc main_v18) = _
  after_results

/-! ## The reshapes, read at the entries the launches' results depend on -/

/-- The weight column at the row of entry i of a 128-column array: the weight of that row's edge. -/
theorem wcol128_apply (x : FVec F S600000 .f32) (i : S600000x128.Idx) :
    shapeCast S600000x1 x shapeCasts_S600000_S600000x1 (idx_main_v13 i) = x (idx_main_v12 (idx_main_v13 i)) := by
  refine shapeCast_apply x shapeCasts_S600000_S600000x1 (idx_main_v13 i) (idx_main_v12 (idx_main_v13 i)) ?_
  rw [Shape.rowMajor_val_one, Shape.rowMajor_val_two]
  show (i 0).val = (i 0).val * 1 + 0
  omega

/-- The same for a 64-column array. -/
theorem wcol64_apply (x : FVec F S600000 .f32) (i : S600000x64.Idx) :
    shapeCast S600000x1 x shapeCasts_S600000_S600000x1 (idx_main_v35 i) = x (idx_main_v34 (idx_main_v35 i)) := by
  refine shapeCast_apply x shapeCasts_S600000_S600000x1 (idx_main_v35 i) (idx_main_v34 (idx_main_v35 i)) ?_
  rw [Shape.rowMajor_val_one, Shape.rowMajor_val_two]
  show (i 0).val = (i 0).val * 1 + 0
  omega

/-- The first bias as a row, at the column of entry j: the bias of that column. -/
theorem brow128_apply (x : FVec F S128 .f32) (j : S100000x128.Idx) :
    shapeCast S1x128 x shapeCasts_S128_S1x128 (idx_main_v19 j) = x (idx_main_v18 (idx_main_v19 j)) := by
  refine shapeCast_apply x shapeCasts_S128_S1x128 (idx_main_v19 j) (idx_main_v18 (idx_main_v19 j)) ?_
  rw [Shape.rowMajor_val_one, Shape.rowMajor_val_two]
  show (j 1).val = 0 * 128 + (j 1).val
  omega

/-- The second bias as a row, at the column of entry i. -/
theorem brow64_apply (x : FVec F S64 .f32) (i : S100000x64.Idx) :
    shapeCast S1x64 x shapeCasts_S64_S1x64 (idx_main_v41 i) = x (idx_main_v40 (idx_main_v41 i)) := by
  refine shapeCast_apply x shapeCasts_S64_S1x64 (idx_main_v41 i) (idx_main_v40 (idx_main_v41 i)) ?_
  rw [Shape.rowMajor_val_one, Shape.rowMajor_val_two]
  show (i 1).val = 0 * 64 + (i 1).val
  omega

end Cert.KernelIdeal.HostStages

end
-- ==== Proof.CarryTable.lean ====
/-
  What the prepared arrays and the last weight matrix hold at the later boundaries of @main: a buffer that neither a
  launch nor a stretch of host operations writes keeps its contents across it, so each lemma is the one for the
  boundary before, carried across one segment.
-/
import proofs.«429833_j50173807952427_1_alg».proof.Proof.Carry
import Idealize.ShloMosaic.Lib.StableHlo.Run

set_option maxRecDepth 16384

noncomputable section

namespace Cert.KernelIdeal.Carry

open Cert.KernelIdeal Cert.KernelIdeal.Gen Cert.KernelIdeal.HostOps
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## After the first launch (W2) -/

theorem W2_v1 : W2 m ρ c (Proc.devRef .tc main_v1) = srcOf (m ((c : Thread nD τ).loc main_arg1)) := by
  exact (W2_of_ne m ρ c main_v1 (by decide)).trans (W1_v1 m ρ c)
theorem W2_v3 : W2 m ρ c (Proc.devRef .tc main_v3) = dstOf (m ((c : Thread nD τ).loc main_arg1)) := by
  exact (W2_of_ne m ρ c main_v3 (by decide)).trans (W1_v3 m ρ c)
theorem W2_v4 : W2 m ρ c (Proc.devRef .tc main_v4) = shapeCast S600000x1 (m ((c : Thread nD τ).loc main_arg2)) shapeCasts_S600000_S600000x1 := by
  exact (W2_of_ne m ρ c main_v4 (by decide)).trans (W1_v4 m ρ c)
theorem W2_v5 : W2 m ρ c (Proc.devRef .tc main_v5) = shapeCast S1x128 (m ((c : Thread nD τ).loc main_arg4)) shapeCasts_S128_S1x128 := by
  exact (W2_of_ne m ρ c main_v5 (by decide)).trans (W1_v5 m ρ c)
theorem W2_v6 : W2 m ρ c (Proc.devRef .tc main_v6) = shapeCast S1x64 (m ((c : Thread nD τ).loc main_arg6)) shapeCasts_S64_S1x64 := by
  exact (W2_of_ne m ρ c main_v6 (by decide)).trans (W1_v6 m ρ c)
theorem W2_arg5 : W2 m ρ c (Proc.devRef .tc main_arg5) = m ((c : Thread nD τ).loc main_arg5) := by
  exact (W2_of_ne m ρ c main_arg5 (by decide)).trans (W1_arg5 m ρ c)

/-! ## After the first take (W3) -/

theorem W3_v1 : W3 m ρ c (Proc.devRef .tc main_v1) = srcOf (m ((c : Thread nD τ).loc main_arg1)) := by
  show StableHlo.after hostOps1 (W2 m ρ c) (Proc.devRef .tc main_v1) = _
  after_results
  exact W2_v1 m ρ c
theorem W3_v3 : W3 m ρ c (Proc.devRef .tc main_v3) = dstOf (m ((c : Thread nD τ).loc main_arg1)) := by
  show StableHlo.after hostOps1 (W2 m ρ c) (Proc.devRef .tc main_v3) = _
  after_results
  exact W2_v3 m ρ c
theorem W3_v4 : W3 m ρ c (Proc.devRef .tc main_v4) = shapeCast S600000x1 (m ((c : Thread nD τ).loc main_arg2)) shapeCasts_S600000_S600000x1 := by
  show StableHlo.after hostOps1 (W2 m ρ c) (Proc.devRef .tc main_v4) = _
  after_results
  exact W2_v4 m ρ c
theorem W3_v5 : W3 m ρ c (Proc.devRef .tc main_v5) = shapeCast S1x128 (m ((c : Thread nD τ).loc main_arg4)) shapeCasts_S128_S1x128 := by
  show StableHlo.after hostOps1 (W2 m ρ c) (Proc.devRef .tc main_v5) = _
  after_results
  exact W2_v5 m ρ c
theorem W3_v6 : W3 m ρ c (Proc.devRef .tc main_v6) = shapeCast S1x64 (m ((c : Thread nD τ).loc main_arg6)) shapeCasts_S64_S1x64 := by
  show StableHlo.after hostOps1 (W2 m ρ c) (Proc.devRef .tc main_v6) = _
  after_results
  exact W2_v6 m ρ c
theorem W3_arg5 : W3 m ρ c (Proc.devRef .tc main_arg5) = m ((c : Thread nD τ).loc main_arg5) := by
  show StableHlo.after hostOps1 (W2 m ρ c) (Proc.devRef .tc main_arg5) = _
  after_results
  exact W2_arg5 m ρ c

/-! ## After the first scale launch (W4) -/

theorem W4_v1 : W4 m ρ c (Proc.devRef .tc main_v1) = srcOf (m ((c : Thread nD τ).loc main_arg1)) := by
  exact (W4_of_ne m ρ c main_v1 (by decide)).trans (W3_v1 m ρ c)
theorem W4_v3 : W4 m ρ c (Proc.devRef .tc main_v3) = dstOf (m ((c : Thread nD τ).loc main_arg1)) := by
  exact (W4_of_ne m ρ c main_v3 (by decide)).trans (W3_v3 m ρ c)
theorem W4_v4 : W4 m ρ c (Proc.devRef .tc main_v4) = shapeCast S600000x1 (m ((c : Thread nD τ).loc main_arg2)) shapeCasts_S600000_S600000x1 := by
  exact ((W4_arr m ρ c 1).trans (((dat1 (V3 m ρ) c).arrAt_in 1 rfl _).trans (A_eq1 (V3 m ρ) c 1))).trans (W3_v4 m ρ c)
theorem W4_v5 : W4 m ρ c (Proc.devRef .tc main_v5) = shapeCast S1x128 (m ((c : Thread nD τ).loc main_arg4)) shapeCasts_S128_S1x128 := by
  exact (W4_of_ne m ρ c main_v5 (by decide)).trans (W3_v5 m ρ c)
theorem W4_v6 : W4 m ρ c (Proc.devRef .tc main_v6) = shapeCast S1x64 (m ((c : Thread nD τ).loc main_arg6)) shapeCasts_S64_S1x64 := by
  exact (W4_of_ne m ρ c main_v6 (by decide)).trans (W3_v6 m ρ c)
theorem W4_arg5 : W4 m ρ c (Proc.devRef .tc main_arg5) = m ((c : Thread nD τ).loc main_arg5) := by
  exact (W4_of_ne m ρ c main_arg5 (by decide)).trans (W3_arg5 m ρ c)

/-! ## After the first scatter-add (W5) -/

theorem W5_v1 : W5 m ρ c (Proc.devRef .tc main_v1) = srcOf (m ((c : Thread nD τ).loc main_arg1)) := by
  show StableHlo.after hostOps2 (W4 m ρ c) (Proc.devRef .tc main_v1) = _
  after_results
  exact W4_v1 m ρ c
theorem W5_v3 : W5 m ρ c (Proc.devRef .tc main_v3) = dstOf (m ((c : Thread nD τ).loc main_arg1)) := by
  show StableHlo.after hostOps2 (W4 m ρ c) (Proc.devRef .tc main_v3) = _
  after_results
  exact W4_v3 m ρ c
theorem W5_v4 : W5 m ρ c (Proc.devRef .tc main_v4) = shapeCast S600000x1 (m ((c : Thread nD τ).loc main_arg2)) shapeCasts_S600000_S600000x1 := by
  show StableHlo.after hostOps2 (W4 m ρ c) (Proc.devRef .tc main_v4) = _
  after_results
  exact W4_v4 m ρ c
theorem W5_v5 : W5 m ρ c (Proc.devRef .tc main_v5) = shapeCast S1x128 (m ((c : Thread nD τ).loc main_arg4)) shapeCasts_S128_S1x128 := by
  show StableHlo.after hostOps2 (W4 m ρ c) (Proc.devRef .tc main_v5) = _
  after_results
  exact W4_v5 m ρ c
theorem W5_v6 : W5 m ρ c (Proc.devRef .tc main_v6) = shapeCast S1x64 (m ((c : Thread nD τ).loc main_arg6)) shapeCasts_S64_S1x64 := by
  show StableHlo.after hostOps2 (W4 m ρ c) (Proc.devRef .tc main_v6) = _
  after_results
  exact W4_v6 m ρ c
theorem W5_arg5 : W5 m ρ c (Proc.devRef .tc main_arg5) = m ((c : Thread nD τ).loc main_arg5) := by
  show StableHlo.after hostOps2 (W4 m ρ c) (Proc.devRef .tc main_arg5) = _
  after_results
  exact W4_arg5 m ρ c

/-! ## After the second matmul launch (W6) -/

theorem W6_v1 : W6 m ρ c (Proc.devRef .tc main_v1) = srcOf (m ((c : Thread nD τ).loc main_arg1)) := by
  exact (W6_of_ne m ρ c main_v1 (by decide)).trans (W5_v1 m ρ c)
theorem W6_v3 : W6 m ρ c (Proc.devRef .tc main_v3) = dstOf (m ((c : Thread nD τ).loc main_arg1)) := by
  exact (W6_of_ne m ρ c main_v3 (by decide)).trans (W5_v3 m ρ c)
theorem W6_v4 : W6 m ρ c (Proc.devRef .tc main_v4) = shapeCast S600000x1 (m ((c : Thread nD τ).loc main_arg2)) shapeCasts_S600000_S600000x1 := by
  exact (W6_of_ne m ρ c main_v4 (by decide)).trans (W5_v4 m ρ c)
theorem W6_v6 : W6 m ρ c (Proc.devRef .tc main_v6) = shapeCast S1x64 (m ((c : Thread nD τ).loc main_arg6)) shapeCasts_S64_S1x64 := by
  exact (W6_of_ne m ρ c main_v6 (by decide)).trans (W5_v6 m ρ c)

/-! ## After the second take (W7) -/

theorem W7_v3 : W7 m ρ c (Proc.devRef .tc main_v3) = dstOf (m ((c : Thread nD τ).loc main_arg1)) := by
  show StableHlo.after hostOps3 (W6 m ρ c) (Proc.devRef .tc main_v3) = _
  after_results
  exact W6_v3 m ρ c
theorem W7_v4 : W7 m ρ c (Proc.devRef .tc main_v4) = shapeCast S600000x1 (m ((c : Thread nD τ).loc main_arg2)) shapeCasts_S600000_S600000x1 := by
  show StableHlo.after hostOps3 (W6 m ρ c) (Proc.devRef .tc main_v4) = _
  after_results
  exact W6_v4 m ρ c
theorem W7_v6 : W7 m ρ c (Proc.devRef .tc main_v6) = shapeCast S1x64 (m ((c : Thread nD τ).loc main_arg6)) shapeCasts_S64_S1x64 := by
  show StableHlo.after hostOps3 (W6 m ρ c) (Proc.devRef .tc main_v6) = _
  after_results
  exact W6_v6 m ρ c

/-! ## After the second scale launch (W8) -/

theorem W8_v3 : W8 m ρ c (Proc.devRef .tc main_v3) = dstOf (m ((c : Thread nD τ).loc main_arg1)) := by
  exact (W8_of_ne m ρ c main_v3 (by decide)).trans (W7_v3 m ρ c)
theorem W8_v6 : W8 m ρ c (Proc.devRef .tc main_v6) = shapeCast S1x64 (m ((c : Thread nD τ).loc main_arg6)) shapeCasts_S64_S1x64 := by
  exact (W8_of_ne m ρ c main_v6 (by decide)).trans (W7_v6 m ρ c)

/-! ## After the second scatter-add (W9) -/

theorem W9_v6 : W9 m ρ c (Proc.devRef .tc main_v6) = shapeCast S1x64 (m ((c : Thread nD τ).loc main_arg6)) shapeCasts_S64_S1x64 := by
  show StableHlo.after hostOps4 (W8 m ρ c) (Proc.devRef .tc main_v6) = _
  after_results
  exact W8_v6 m ρ c

end Cert.KernelIdeal.Carry

end
-- ==== Proof.Region0.lean ====
/-
  The first launch multiplies the feature matrix (100000 rows, 128 columns) by the 128 x 128 weight matrix.  The
  launch runs over 50 blocks of 2000 rows; point t loads rows [2000 t, 2000 t + 2000) of the features and the whole
  weight matrix, and stores their matrix product (accumulated from zero) into the same rows of the result.  At the
  ideal values the narrowing of both operands is the identity, so the block's entry (p, q) is the sum over k of the
  features' entry (2000 t + p, k) times the weights' entry (k, q).  The blocks tile the 100000 rows, so the result
  array is, at every index (r, q), the sum over k of the features at (r, k) times the weights at (k, q).
-/
import proofs.«429833_j50173807952427_1_alg».proof.Proof.Gen.KernelIdeal.Frame
import proofs.«429833_j50173807952427_1_alg».proof.Proof.Gen.ReferenceIdeal.Read
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Cert.ReferenceIdeal.Read (lidx_main_v0 ridx_main_v0)

variable (V : (c : Dev nD) → (b : Ref sig .tc) → Buf (Elt Ideal) ((c : Thread nD τ).loc b))

theorem hz : (![0, 0] : Fin 2 → Nat) = fun _ => 0 := funext fun a => by fin_cases a <;> rfl

/-- The result as one function of the two arrays the launch reads: entry (r, q) is the sum over k of the features'
    entry (r, k) times the weights' entry (k, q). -/
def G (x : (⟨S100000x128, .f32⟩ : BufTy).Contents (Elt Ideal)) (w : (⟨S128x128, .f32⟩ : BufTy).Contents (Elt Ideal)) : (⟨S100000x128, .f32⟩ : BufTy).Contents (Elt Ideal) :=
  fun i => ∑ k : Fin 128, x (lidx_main_v0 i k) * w (ridx_main_v0 i k)

/-! ## The block product's operand indices, axis by axis -/

/-- The left operand's row is the result's row. -/
theorem lhs_blk_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contracted coordinate. -/
theorem lhs_blk_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
/-- The right operand's row is the contracted coordinate. -/
theorem rhs_blk_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
/-- The right operand's column is the result's column. -/
theorem rhs_blk_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The features' entry a block's entry (p, q) reads at k: (p, k). -/
abbrev lblk (j : S2000x128.Idx) (k : Fin 128) : S2000x128.Idx := fun a => match a with
  | ⟨0, _⟩ => ⟨(j 0).val, (j 0).isLt⟩
  | ⟨1, _⟩ => ⟨k.val, k.isLt⟩
/-- The weights' entry a block's entry (p, q) reads at k: (k, q). -/
abbrev rblk (j : S2000x128.Idx) (k : Fin 128) : S128x128.Idx := fun a => match a with
  | ⟨0, _⟩ => ⟨k.val, k.isLt⟩
  | ⟨1, _⟩ => ⟨(j 1).val, (j 1).isLt⟩

/-- The body's value at an entry (p, q) of its block: the sum over k of the loaded block's entry (p, k) times the
    weights' entry (k, q) (the two narrowings are identities at the ideal values and the accumulator starts at zero). -/
theorem pay_apply (x0 : Vec Ideal S2000x128 .f32) (x1 : Vec Ideal S128x128 .f32) (j : S2000x128.Idx) :
    k0_pay1 x0 x1 j = ∑ k : Fin 128, x0 (lblk j k) * x1 (rblk j k) := by
  show FloatOps.matmul dot_S2000x128_S128x128_S2000x128_1_0_0_1_n_n none (truncf (F := Ideal) .bf16 x0 bitsLt_bf16_f32)
    (truncf (F := Ideal) .bf16 x1 bitsLt_bf16_f32) (constant (F := Ideal) S2000x128 .f32 0x00000000#32) j = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = lblk j k := funext fun a => Fin.ext (by
    match a with
    | ⟨0, _⟩ => exact lhs_blk_0 _ _
    | ⟨1, _⟩ => exact (lhs_blk_1 _ _).trans hk)
  have er : dot_S2000x128_S128x128_S2000x128_1_0_0_1_n_n.rhsIdx j ((ValueIdx.contrEquiv1 dot_S2000x128_S128x128_S2000x128_1_0_0_1_n_n 128 rfl rfl).symm k) = rblk j k := funext fun a => Fin.ext (by
    match a with
    | ⟨0, _⟩ => exact (rhs_blk_0 _ _).trans hk
    | ⟨1, _⟩ => exact rhs_blk_1 _ _)
  rw [el, er]
  rfl

/-- The printed index maps over the 50 points: the features' block moves with the result's, the weights stay, and
    the result's block index is (t, 0). -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) ≤ 49 ∧ win0_2.index t (1 : Fin 2) = 0 :=
  (by decide +kernel : ∀ t : Fin grid0.N, _)

/-- Every block row is some point's. -/
theorem idx_onto : ∀ q0 : Fin 50, ∃ t : Fin cfg0.N, win0_2.index t = ![q0.val, 0] :=
  (by decide +kernel : ∀ q0 : Fin 50, ∃ t : Fin grid0.N, win0_2.index t = ![q0.val, 0])

/-- What point t writes back is block t of `G` of the arrays as the launch finds them. -/
theorem flushed_eq (c : Dev nD) (t : Fin cfg0.N) :
    (dat0 V c).flushed 2 t = ((cfg0.win 2).blk t).view.read (Elt Ideal) (G (V c main_arg0) (V c main_arg3)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  funext j
  show k0_pay1 (iblk0 V c 0 t) (iblk0 V c 1 t) j = G (V c main_arg0) (V c main_arg3) (((cfg0.win 2).blk t).view.emb j)
  refine (pay_apply (iblk0 V c 0 t) (iblk0 V c 1 t) j).trans ?_
  unfold G
  refine Finset.sum_congr rfl fun k _ => ?_
  have hA : iblk0 V c 0 t (lblk j k) = V c main_arg0 (lidx_main_v0 (((cfg0.win 2).blk t).view.emb j) k) := by
    show V c main_arg0 (((cfg0.win 0).blk t).view.emb (lblk j k)) = _
    exact congrArg _ (funext fun a => Fin.ext (by
      match a with
      | ⟨0, _⟩ => show win0_0.index t (0 : Fin 2) * 2000 + 1 * (j 0).val = win0_2.index t (0 : Fin 2) * 2000 + 1 * (j 0).val; omega
      | ⟨1, _⟩ => show win0_0.index t (1 : Fin 2) * 128 + 1 * k.val = k.val; omega))
  have hB : iblk0 V c 1 t (rblk j k) = V c main_arg3 (ridx_main_v0 (((cfg0.win 2).blk t).view.emb j) k) := by
    show V c main_arg3 (((cfg0.win 1).blk t).view.emb (rblk j k)) = _
    exact congrArg _ (funext fun a => Fin.ext (by
      match a with
      | ⟨0, _⟩ => show win0_1.index t (0 : Fin 2) * 128 + 1 * k.val = k.val; omega
      | ⟨1, _⟩ => show win0_1.index t (1 : Fin 2) * 128 + 1 * (j 1).val = win0_2.index t (1 : Fin 2) * 128 + 1 * (j 1).val; omega))
  rw [hA, hB]

/-- An index of the result is in point t's block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v7).slice (win0_2.rect t)).set ↔ _
  rw [View.set_slice_whole, Rect.mem_set_unit]
  exact Iff.rfl

/-- The 50 blocks of 2000 rows tile the 100000 rows: row r is in the block of point r / 2000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the launch, from any entry contents `V`. -/
theorem final (c : Dev nD) : (dat0 V c).arrAt 2 cfg0.N = G (V c main_arg0) (V c main_arg3) :=
  (dat0 V c).arrAt_eq_of_cover 2 (G (V c main_arg0) (V c main_arg3)) (fun t _ => flushed_eq V c t) cover

end Cert.KernelIdeal.Region0

end
-- ==== Proof.Region1.lean ====
/-
  The first scale launch multiplies every gathered feature row by its edge's weight.  The launch runs over 200
  blocks of 3000 edges; point t loads rows [3000 t, 3000 t + 3000) of the gathered features (128 columns) and the same
  rows of the weight column, repeats each weight along its row, and stores the products into the same rows of the
  result.  The blocks tile the 600000 edges, so the result array is, at every index (e, q), the gathered feature
  at (e, q) times the weight at (e, 0).
-/
import proofs.«429833_j50173807952427_1_alg».proof.Proof.Gen.KernelIdeal.Frame
import proofs.«429833_j50173807952427_1_alg».proof.Proof.Gen.ReferenceIdeal.Read
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Cert.ReferenceIdeal.Read (idx_main_v13)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The result as one function of the two arrays the launch reads: entry (e, q) is the feature at (e, q) times the
    weight column's entry (e, 0). -/
def G (h : S600000x128.Idx → Elt F .f32) (w : S600000x1.Idx → Elt F .f32) : S600000x128.Idx → Elt F .f32 :=
  fun i => FloatOps.mulf (h i) (w (idx_main_v13 i))

/-- The weight column's entry that row p of a block reads: (p, 0). -/
abbrev colIdx (j : S3000x128.Idx) : S3000x1.Idx := fun a => match a with
  | ⟨0, _⟩ => ⟨(j 0).val, (j 0).isLt⟩
  | ⟨1, _⟩ => ⟨0, Nat.one_pos⟩

/-- The body's value at an entry (p, q) of its block: the loaded feature block's entry times the weight column's
    entry (p, 0) (the shape casts are identities and the broadcast repeats the one column). -/
theorem pay_apply (x0 : Vec F S3000x1 .f32) (x4 : Vec F S3000x128 .f32) (j : S3000x128.Idx) :
    k1_pay1 x0 x4 j = FloatOps.mulf (x4 j) (x0 (colIdx j)) := by
  show FloatOps.mulf (shapeCast S3000x128 x4 shapeCasts_S3000x128_S3000x128 j)
    (broadcastTo S3000x128 (shapeCast S3000x1 (shapeCast S3000x1 x0 shapeCasts_S3000x1_S3000x1) shapeCasts_S3000x1_S3000x1)
      broadcasts_S3000x1_S3000x128 j) = _
  rw [shapeCast_self, shapeCast_self, shapeCast_self]
  refine congrArg _ (broadcastTo_apply x0 broadcasts_S3000x1_S3000x128 j _ fun a => ?_)
  match a with
  | ⟨0, _⟩ => show (j 0).val = if (3000 : Nat) = 1 then 0 else (j 0).val; rw [if_neg (by decide)]
  | ⟨1, _⟩ => show (0 : Nat) = if (1 : Nat) = 1 then 0 else _; rw [if_pos rfl]

/-- The printed index maps over the 200 points: the feature block and the weight block move with the result's, and
    the result's block index is (t, 0). -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2) ∧ win1_1.index t (1 : Fin 2) = 0
    ∧ win1_2.index t (0 : Fin 2) ≤ 199 ∧ win1_2.index t (1 : Fin 2) = 0 :=
  (by decide +kernel : ∀ t : Fin grid1.N, _)

/-- Every block row is some point's. -/
theorem idx_onto : ∀ q0 : Fin 200, ∃ t : Fin cfg1.N, win1_2.index t = ![q0.val, 0] :=
  (by decide +kernel : ∀ q0 : Fin 200, ∃ t : Fin grid1.N, win1_2.index t = ![q0.val, 0])

/-- What point t writes back is block t of `G` of the arrays as the launch finds them. -/
theorem flushed_eq (c : Dev nD) (t : Fin cfg1.N) :
    (dat1 V c).flushed 2 t = ((cfg1.win 2).blk t).view.read (Elt F) (G (V c main_v8) (V c main_v4)) := by
  show (cfg1.win 2).cut (grid1.coords t) ((dat1 V c).after 2 t) = _
  rw [after1_2]
  unfold out1_2
  rw [View.canon_unit_zero hz]
  simp only [View.ld_unit_zero (S := S3000x128) hz, View.ld_unit_zero (S := S3000x1) hz]
  obtain ⟨e0, e1, e2, e3, e4, e5⟩ := idx_facts t
  funext j
  show k1_pay1 (iblk1 V c 1 t) (iblk1 V c 0 t) j = G (V c main_v8) (V c main_v4) (((cfg1.win 2).blk t).view.emb j)
  refine (pay_apply (iblk1 V c 1 t) (iblk1 V c 0 t) j).trans ?_
  have h0 : ((cfg1.win 0).blk t).view.emb j = ((cfg1.win 2).blk t).view.emb j := by
    funext a; apply Fin.ext
    match a with
    | ⟨0, _⟩ => show win1_0.index t (0 : Fin 2) * 3000 + 1 * (j 0).val = win1_2.index t (0 : Fin 2) * 3000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (colIdx j) = idx_main_v13 (((cfg1.win 2).blk t).view.emb j) := by
    funext a; apply Fin.ext
    match a with
    | ⟨0, _⟩ => show win1_1.index t (0 : Fin 2) * 3000 + 1 * (j 0).val = win1_2.index t (0 : Fin 2) * 3000 + 1 * (j 0).val; omega
    | ⟨1, _⟩ => show win1_1.index t (1 : Fin 2) * 1 + 1 * 0 = 0; omega
  have hA : iblk1 V c 0 t j = V c main_v8 (((cfg1.win 2).blk t).view.emb j) := by
    show V c main_v8 (((cfg1.win 0).blk t).view.emb j) = _
    exact congrArg _ h0
  have hB : iblk1 V c 1 t (colIdx j) = V c main_v4 (idx_main_v13 (((cfg1.win 2).blk t).view.emb j)) := by
    show V c main_v4 (((cfg1.win 1).blk t).view.emb (colIdx j)) = _
    exact congrArg _ h1
  rw [hA, hB]
  rfl

/-- An index of the result is in point t's block iff each coordinate is in the block's range on its axis. -/
theorem mem_blk (t : Fin cfg1.N) (i : S600000x128.Idx) :
    i ∈ ((cfg1.win 2).blk t).view.set ↔ ∀ a : Fin 2, win1_2.index t a * S3000x128.size a ≤ (i a).val ∧ (i a).val < win1_2.index t a * S3000x128.size a + S3000x128.size a := by
  show i ∈ ((View.whole main_v9).slice (win1_2.rect t)).set ↔ _
  rw [View.set_slice_whole, Rect.mem_set_unit]
  exact Iff.rfl

/-- The 200 blocks of 3000 rows tile the 600000 rows: row e is in the block of point e / 3000. -/
theorem cover (i : S600000x128.Idx) : ∃ t : Fin cfg1.N, (cfg1.win 2).flush t = true ∧ i ∈ ((cfg1.win 2).blk t).view.set := by
  have hi0 : (i 0).val < 600000 := (i 0).isLt
  have hi1 : (i 1).val < 128 := (i 1).isLt
  obtain ⟨t, ht⟩ := idx_onto ⟨(i 0).val / 3000, by omega⟩
  have q0 : win1_2.index t (0 : Fin 2) = (i 0).val / 3000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 3000 ≤ (i 0).val ∧ (i 0).val < win1_2.index t (0 : Fin 2) * 3000 + 3000; omega
  | ⟨1, _⟩ => show win1_2.index t (1 : Fin 2) * 128 ≤ (i 1).val ∧ (i 1).val < win1_2.index t (1 : Fin 2) * 128 + 128; omega

/-- The result array after the launch, from any entry contents `V`. -/
theorem final (c : Dev nD) : (dat1 V c).arrAt 2 cfg1.N = G (V c main_v8) (V c main_v4) :=
  (dat1 V c).arrAt_eq_of_cover 2 (G (V c main_v8) (V c main_v4)) (fun t _ => flushed_eq V c t) cover

end Cert.KernelIdeal.Region1

end
-- ==== Proof.Region2.lean ====
/-
  The third launch adds the bias row to every row of the aggregated features, clamps the sum below at zero, and
  multiplies by the 128 x 64 weight matrix.  The launch runs over 50 blocks of 2000 rows; point t loads rows
  [2000 t, 2000 t + 2000) of the aggregate (128 columns), the whole bias row and the whole weight matrix, and stores
  the product (accumulated from zero) into the same rows of the result (64 columns).  At the ideal values the
  narrowing of both operands is the identity, so the block's entry (p, q) is the sum over k of
  max (aggregate (2000 t + p, k) + bias (0, k), 0) times the weights' entry (k, q).  The blocks tile the 100000 rows,
  so the result array is, at every index (r, q), the sum over k of max (aggregate (r, k) + bias (0, k), 0) times the
  weights at (k, q).
-/
import proofs.«429833_j50173807952427_1_alg».proof.Proof.Gen.KernelIdeal.Frame
import proofs.«429833_j50173807952427_1_alg».proof.Proof.Gen.ReferenceIdeal.Read
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Cert.ReferenceIdeal.Read (lidx_main_v22 ridx_main_v22 idx_main_v19)

variable (V : (c : Dev nD) → (b : Ref sig .tc) → Buf (Elt Ideal) ((c : Thread nD τ).loc b))

theorem hz : (![0, 0] : Fin 2 → Nat) = fun _ => 0 := funext fun a => by fin_cases a <;> rfl

/-- The result as one function of the three arrays the launch reads: entry (r, q) is the sum over k of
    max (aggregate (r, k) + bias (0, k), 0) times the weights' entry (k, q). -/
def G (a : (⟨S100000x128, .f32⟩ : BufTy).Contents (Elt Ideal)) (b : (⟨S1x128, .f32⟩ : BufTy).Contents (Elt Ideal)) (w : (⟨S128x64, .f32⟩ : BufTy).Contents (Elt Ideal)) : (⟨S100000x64, .f32⟩ : BufTy).Contents (Elt Ideal) :=
  fun i => ∑ k : Fin 128, FloatOps.maximumf (F := Ideal) (φ := .f32) (FloatOps.addf (F := Ideal) (φ := .f32) (a (lidx_main_v22 i k)) (b (idx_main_v19 (lidx_main_v22 i k)))) (FloatOps.ofBits (F := Ideal) .f32 0x00000000#32) * w (ridx_main_v22 i k)

/-! ## The block product's operand indices, axis by axis -/

/-- The left operand's row is the result's row. -/
theorem lhs_blk_0 (j : S2000x64.Idx) (q : dot_S2000x128_S128x64_S2000x64_1_0_0_1_n_n.contr.Idx) :
    (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- The left operand's column is the contracted coordinate. -/
theorem lhs_blk_1 (j : S2000x64.Idx) (q : dot_S2000x128_S128x64_S2000x64_1_0_0_1_n_n.contr.Idx) :
    (dot_S2000x128_S128x64_S2000x64_1_0_0_1_n_n.lhsIdx j q 1).val = (q ⟨0, by decide⟩).val :=
  dot_S2000x128_S128x64_S2000x64_1_0_0_1_n_n.lhsIdx_val_of_single rfl j q
/-- The right operand's row is the contracted coordinate. -/
theorem rhs_blk_0 (j : S2000x64.Idx) (q : dot_S2000x128_S128x64_S2000x64_1_0_0_1_n_n.contr.Idx) :
    (dot_S2000x128_S128x64_S2000x64_1_0_0_1_n_n.rhsIdx j q 0).val = (q ⟨0, by decide⟩).val :=
  dot_S2000x128_S128x64_S2000x64_1_0_0_1_n_n.rhsIdx_val_of_single rfl j q
/-- The right operand's column is the result's column. -/
theorem rhs_blk_1 (j : S2000x64.Idx) (q : dot_S2000x128_S128x64_S2000x64_1_0_0_1_n_n.contr.Idx) :
    (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The left operand's entry a block's entry (p, q) reads at k: (p, k). -/
abbrev lblk (j : S2000x64.Idx) (k : Fin 128) : S2000x128.Idx := fun a => match a with
  | ⟨0, _⟩ => ⟨(j 0).val, (j 0).isLt⟩
  | ⟨1, _⟩ => ⟨k.val, k.isLt⟩
/-- The weights' entry a block's entry (p, q) reads at k: (k, q). -/
abbrev rblk (j : S2000x64.Idx) (k : Fin 128) : S128x64.Idx := fun a => match a with
  | ⟨0, _⟩ => ⟨k.val, k.isLt⟩
  | ⟨1, _⟩ => ⟨(j 1).val, (j 1).isLt⟩
/-- The bias row's entry that column k of a block reads: (0, k). -/
abbrev rowIdx (i : S2000x128.Idx) : S1x128.Idx := fun a => match a with
  | ⟨0, _⟩ => ⟨0, Nat.one_pos⟩
  | ⟨1, _⟩ => ⟨(i 1).val, (i 1).isLt⟩

/-- A block product accumulated from zero, at an entry (p, q): the sum over k of the left operand's entry (p, k) times
    the right operand's entry (k, q). -/
theorem mm_apply (y : FVec Ideal S2000x128 .bf16) (w : FVec Ideal S128x64 .bf16) (j : S2000x64.Idx) :
    FloatOps.matmul dot_S2000x128_S128x64_S2000x64_1_0_0_1_n_n none y w (constant (F := Ideal) S2000x64 .f32 0x00000000#32) j
      = ∑ k : Fin 128, y (lblk j k) * w (rblk j k) := by
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = lblk j k := funext fun a => Fin.ext (by
    match a with
    | ⟨0, _⟩ => exact lhs_blk_0 _ _
    | ⟨1, _⟩ => exact (lhs_blk_1 _ _).trans hk)
  have er : dot_S2000x128_S128x64_S2000x64_1_0_0_1_n_n.rhsIdx j ((ValueIdx.contrEquiv1 dot_S2000x128_S128x64_S2000x64_1_0_0_1_n_n 128 rfl rfl).symm k) = rblk j k := funext fun a => Fin.ext (by
    match a with
    | ⟨0, _⟩ => exact (rhs_blk_0 _ _).trans hk
    | ⟨1, _⟩ => exact rhs_blk_1 _ _)
  rw [el, er]

/-- The left operand of the product at an entry (p, k) of its block: the loaded block's entry plus the bias row's
    entry (0, k), clamped below at zero (the two shape casts are identities and the broadcast repeats the one row). -/
theorem act_apply (x0 : Vec Ideal S2000x128 .f32) (x1 : Vec Ideal S1x128 .f32) (i : S2000x128.Idx) :
    (maximumf (F := Ideal) (addf (F := Ideal) (shapeCast S2000x128 x0 shapeCasts_S2000x128_S2000x128)
        (broadcastTo S2000x128 (shapeCast S1x128 x1 shapeCasts_S1x128_S1x128) broadcasts_S1x128_S2000x128))
      (broadcast S2000x128 (Scalar.ofBits (F := Ideal) .f32 0x00000000#32)) : FVec Ideal S2000x128 .f32) i
      = FloatOps.maximumf (F := Ideal) (φ := .f32) (FloatOps.addf (F := Ideal) (φ := .f32) (x0 i) (x1 (rowIdx i))) (FloatOps.ofBits (F := Ideal) .f32 0x00000000#32) := by
  rw [shapeCast_self, shapeCast_self]
  show FloatOps.maximumf (F := Ideal) (φ := .f32) (FloatOps.addf (F := Ideal) (φ := .f32) (x0 i) (broadcastTo S2000x128 x1 broadcasts_S1x128_S2000x128 i)) _ = _
  refine congrArg (fun z => FloatOps.maximumf (F := Ideal) (φ := .f32) (FloatOps.addf (F := Ideal) (φ := .f32) (x0 i) z) _) (broadcastTo_apply x1 broadcasts_S1x128_S2000x128 i _ fun a => ?_)
  match a with
  | ⟨0, _⟩ => show (0 : Nat) = if (1 : Nat) = 1 then 0 else _; rw [if_pos rfl]
  | ⟨1, _⟩ => show (i 1).val = if (128 : Nat) = 1 then 0 else (i 1).val; rw [if_neg (by decide)]

/-- The body's value at an entry (p, q) of its block: the sum over k of max (block (p, k) + bias (0, k), 0) times the
    weights' entry (k, q) (the two narrowings are identities at the ideal values). -/
theorem pay_apply (x0 : Vec Ideal S2000x128 .f32) (x1 : Vec Ideal S1x128 .f32) (x2 : Vec Ideal S128x64 .f32) (j : S2000x64.Idx) :
    k2_pay1 x0 x1 x2 j = ∑ k : Fin 128, FloatOps.maximumf (F := Ideal) (φ := .f32) (FloatOps.addf (F := Ideal) (φ := .f32) (x0 (lblk j k)) (x1 (rowIdx (lblk j k)))) (FloatOps.ofBits (F := Ideal) .f32 0x00000000#32) * x2 (rblk j k) := by
  show FloatOps.matmul dot_S2000x128_S128x64_S2000x64_1_0_0_1_n_n none
    (truncf (F := Ideal) .bf16 (maximumf (F := Ideal) (addf (F := Ideal) (shapeCast S2000x128 x0 shapeCasts_S2000x128_S2000x128)
        (broadcastTo S2000x128 (shapeCast S1x128 x1 shapeCasts_S1x128_S1x128) broadcasts_S1x128_S2000x128))
      (broadcast S2000x128 (Scalar.ofBits (F := Ideal) .f32 0x00000000#32))) bitsLt_bf16_f32)
    (truncf (F := Ideal) .bf16 x2 bitsLt_bf16_f32) (constant (F := Ideal) S2000x64 .f32 0x00000000#32) j = _
  refine (mm_apply _ _ j).trans ?_
  refine Finset.sum_congr rfl fun k _ => ?_
  exact congrArg (· * x2 (rblk j k)) (act_apply x0 x1 (lblk j k))

/-- The printed index maps over the 50 points: the aggregate's block moves with the result's, the bias row and the
    weights stay, and the result's block index is (t, 0). -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 49 ∧ win2_3.index t (1 : Fin 2) = 0 :=
  (by decide +kernel : ∀ t : Fin grid2.N, _)

/-- Every block row is some point's. -/
theorem idx_onto : ∀ q0 : Fin 50, ∃ t : Fin cfg2.N, win2_3.index t = ![q0.val, 0] :=
  (by decide +kernel : ∀ q0 : Fin 50, ∃ t : Fin grid2.N, win2_3.index t = ![q0.val, 0])

/-- What point t writes back is block t of `G` of the arrays as the launch finds them. -/
theorem flushed_eq (c : Dev nD) (t : Fin cfg2.N) :
    (dat2 V c).flushed 3 t = ((cfg2.win 3).blk t).view.read (Elt Ideal) (G (V c main_v12) (V c main_v5) (V c main_arg5)) := by
  show (cfg2.win 3).cut (grid2.coords t) ((dat2 V c).after 3 t) = _
  rw [after2_3]
  unfold out2_3
  rw [View.canon_unit_zero hz]
  simp only [View.ld_unit_zero (S := S2000x128) hz, View.ld_unit_zero (S := S1x128) hz, View.ld_unit_zero (S := S128x64) hz]
  obtain ⟨e0, e1, e2, e3, e4, e5, e6, e7⟩ := idx_facts t
  funext j
  show k2_pay1 (iblk2 V c 0 t) (iblk2 V c 1 t) (iblk2 V c 2 t) j = G (V c main_v12) (V c main_v5) (V c main_arg5) (((cfg2.win 3).blk t).view.emb j)
  refine (pay_apply (iblk2 V c 0 t) (iblk2 V c 1 t) (iblk2 V c 2 t) j).trans ?_
  unfold G
  refine Finset.sum_congr rfl fun k _ => ?_
  have hA : iblk2 V c 0 t (lblk j k) = V c main_v12 (lidx_main_v22 (((cfg2.win 3).blk t).view.emb j) k) := by
    show V c main_v12 (((cfg2.win 0).blk t).view.emb (lblk j k)) = _
    exact congrArg _ (funext fun a => Fin.ext (by
      match a with
      | ⟨0, _⟩ => show win2_0.index t (0 : Fin 2) * 2000 + 1 * (j 0).val = win2_3.index t (0 : Fin 2) * 2000 + 1 * (j 0).val; omega
      | ⟨1, _⟩ => show win2_0.index t (1 : Fin 2) * 128 + 1 * k.val = k.val; omega))
  have hB : iblk2 V c 1 t (rowIdx (lblk j k)) = V c main_v5 (idx_main_v19 (lidx_main_v22 (((cfg2.win 3).blk t).view.emb j) k)) := by
    show V c main_v5 (((cfg2.win 1).blk t).view.emb (rowIdx (lblk j k))) = _
    exact congrArg _ (funext fun a => Fin.ext (by
      match a with
      | ⟨0, _⟩ => show win2_1.index t (0 : Fin 2) * 1 + 1 * 0 = 0; omega
      | ⟨1, _⟩ => show win2_1.index t (1 : Fin 2) * 128 + 1 * k.val = k.val; omega))
  have hC : iblk2 V c 2 t (rblk j k) = V c main_arg5 (ridx_main_v22 (((cfg2.win 3).blk t).view.emb j) k) := by
    show V c main_arg5 (((cfg2.win 2).blk t).view.emb (rblk j k)) = _
    exact congrArg _ (funext fun a => Fin.ext (by
      match a with
      | ⟨0, _⟩ => show win2_2.index t (0 : Fin 2) * 128 + 1 * k.val = k.val; omega
      | ⟨1, _⟩ => show win2_2.index t (1 : Fin 2) * 64 + 1 * (j 1).val = win2_3.index t (1 : Fin 2) * 64 + 1 * (j 1).val; omega))
  rw [hA, hB, hC]

/-- An index of the result is in point t's block iff each coordinate is in the block's range on its axis. -/
theorem mem_blk (t : Fin cfg2.N) (i : S100000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v13).slice (win2_3.rect t)).set ↔ _
  rw [View.set_slice_whole, Rect.mem_set_unit]
  exact Iff.rfl

/-- The 50 blocks of 2000 rows tile the 100000 rows: row r is in the block of point r / 2000. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 64 ≤ (i 1).val ∧ (i 1).val < win2_3.index t (1 : Fin 2) * 64 + 64; omega

/-- The result array after the launch, from any entry contents `V`. -/
theorem final (c : Dev nD) : (dat2 V c).arrAt 3 cfg2.N = G (V c main_v12) (V c main_v5) (V c main_arg5) :=
  (dat2 V c).arrAt_eq_of_cover 3 (G (V c main_v12) (V c main_v5) (V c main_arg5)) (fun t _ => flushed_eq V c t) cover

end Cert.KernelIdeal.Region2

end
-- ==== Proof.Region3.lean ====
/-
  The second scale launch multiplies every gathered feature row by its edge's weight.  The launch runs over 200
  blocks of 3000 edges; point t loads rows [3000 t, 3000 t + 3000) of the gathered features (64 columns) and the same
  rows of the weight column, repeats each weight along its row, and stores the products into the same rows of the
  result.  The blocks tile the 600000 edges, so the result array is, at every index (e, q), the gathered feature
  at (e, q) times the weight at (e, 0).
-/
import proofs.«429833_j50173807952427_1_alg».proof.Proof.Gen.KernelIdeal.Frame
import proofs.«429833_j50173807952427_1_alg».proof.Proof.Gen.ReferenceIdeal.Read
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)
open Cert.ReferenceIdeal.Read (idx_main_v35)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The result as one function of the two arrays the launch reads: entry (e, q) is the feature at (e, q) times the
    weight column's entry (e, 0). -/
def G (h : S600000x64.Idx → Elt F .f32) (w : S600000x1.Idx → Elt F .f32) : S600000x64.Idx → Elt F .f32 :=
  fun i => FloatOps.mulf (h i) (w (idx_main_v35 i))

/-- The weight column's entry that row p of a block reads: (p, 0). -/
abbrev colIdx (j : S3000x64.Idx) : S3000x1.Idx := fun a => match a with
  | ⟨0, _⟩ => ⟨(j 0).val, (j 0).isLt⟩
  | ⟨1, _⟩ => ⟨0, Nat.one_pos⟩

/-- The body's value at an entry (p, q) of its block: the loaded feature block's entry times the weight column's
    entry (p, 0) (the shape casts are identities and the broadcast repeats the one column). -/
theorem pay_apply (x0 : Vec F S3000x1 .f32) (x4 : Vec F S3000x64 .f32) (j : S3000x64.Idx) :
    k3_pay1 x0 x4 j = FloatOps.mulf (x4 j) (x0 (colIdx j)) := by
  show FloatOps.mulf (shapeCast S3000x64 x4 shapeCasts_S3000x64_S3000x64 j)
    (broadcastTo S3000x64 (shapeCast S3000x1 (shapeCast S3000x1 x0 shapeCasts_S3000x1_S3000x1) shapeCasts_S3000x1_S3000x1)
      broadcasts_S3000x1_S3000x64 j) = _
  rw [shapeCast_self, shapeCast_self, shapeCast_self]
  refine congrArg _ (broadcastTo_apply x0 broadcasts_S3000x1_S3000x64 j _ fun a => ?_)
  match a with
  | ⟨0, _⟩ => show (j 0).val = if (3000 : Nat) = 1 then 0 else (j 0).val; rw [if_neg (by decide)]
  | ⟨1, _⟩ => show (0 : Nat) = if (1 : Nat) = 1 then 0 else _; rw [if_pos rfl]

/-- The printed index maps over the 200 points: the feature block and the weight block move with the result's, and
    the result's block index is (t, 0). -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2) ∧ win3_1.index t (1 : Fin 2) = 0
    ∧ win3_2.index t (0 : Fin 2) ≤ 199 ∧ win3_2.index t (1 : Fin 2) = 0 :=
  (by decide +kernel : ∀ t : Fin grid3.N, _)

/-- Every block row is some point's. -/
theorem idx_onto : ∀ q0 : Fin 200, ∃ t : Fin cfg3.N, win3_2.index t = ![q0.val, 0] :=
  (by decide +kernel : ∀ q0 : Fin 200, ∃ t : Fin grid3.N, win3_2.index t = ![q0.val, 0])

/-- What point t writes back is block t of `G` of the arrays as the launch finds them. -/
theorem flushed_eq (c : Dev nD) (t : Fin cfg3.N) :
    (dat3 V c).flushed 2 t = ((cfg3.win 2).blk t).view.read (Elt F) (G (V c main_v14) (V c main_v4)) := by
  show (cfg3.win 2).cut (grid3.coords t) ((dat3 V c).after 2 t) = _
  rw [after3_2]
  unfold out3_2
  rw [View.canon_unit_zero hz]
  simp only [View.ld_unit_zero (S := S3000x64) hz, View.ld_unit_zero (S := S3000x1) hz]
  obtain ⟨e0, e1, e2, e3, e4, e5⟩ := idx_facts t
  funext j
  show k3_pay1 (iblk3 V c 1 t) (iblk3 V c 0 t) j = G (V c main_v14) (V c main_v4) (((cfg3.win 2).blk t).view.emb j)
  refine (pay_apply (iblk3 V c 1 t) (iblk3 V c 0 t) j).trans ?_
  have h0 : ((cfg3.win 0).blk t).view.emb j = ((cfg3.win 2).blk t).view.emb j := by
    funext a; apply Fin.ext
    match a with
    | ⟨0, _⟩ => show win3_0.index t (0 : Fin 2) * 3000 + 1 * (j 0).val = win3_2.index t (0 : Fin 2) * 3000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (colIdx j) = idx_main_v35 (((cfg3.win 2).blk t).view.emb j) := by
    funext a; apply Fin.ext
    match a with
    | ⟨0, _⟩ => show win3_1.index t (0 : Fin 2) * 3000 + 1 * (j 0).val = win3_2.index t (0 : Fin 2) * 3000 + 1 * (j 0).val; omega
    | ⟨1, _⟩ => show win3_1.index t (1 : Fin 2) * 1 + 1 * 0 = 0; omega
  have hA : iblk3 V c 0 t j = V c main_v14 (((cfg3.win 2).blk t).view.emb j) := by
    show V c main_v14 (((cfg3.win 0).blk t).view.emb j) = _
    exact congrArg _ h0
  have hB : iblk3 V c 1 t (colIdx j) = V c main_v4 (idx_main_v35 (((cfg3.win 2).blk t).view.emb j)) := by
    show V c main_v4 (((cfg3.win 1).blk t).view.emb (colIdx j)) = _
    exact congrArg _ h1
  rw [hA, hB]
  rfl

/-- An index of the result is in point t's block iff each coordinate is in the block's range on its axis. -/
theorem mem_blk (t : Fin cfg3.N) (i : S600000x64.Idx) :
    i ∈ ((cfg3.win 2).blk t).view.set ↔ ∀ a : Fin 2, win3_2.index t a * S3000x64.size a ≤ (i a).val ∧ (i a).val < win3_2.index t a * S3000x64.size a + S3000x64.size a := by
  show i ∈ ((View.whole main_v15).slice (win3_2.rect t)).set ↔ _
  rw [View.set_slice_whole, Rect.mem_set_unit]
  exact Iff.rfl

/-- The 200 blocks of 3000 rows tile the 600000 rows: row e is in the block of point e / 3000. -/
theorem cover (i : S600000x64.Idx) : ∃ t : Fin cfg3.N, (cfg3.win 2).flush t = true ∧ i ∈ ((cfg3.win 2).blk t).view.set := by
  have hi0 : (i 0).val < 600000 := (i 0).isLt
  have hi1 : (i 1).val < 64 := (i 1).isLt
  obtain ⟨t, ht⟩ := idx_onto ⟨(i 0).val / 3000, by omega⟩
  have q0 : win3_2.index t (0 : Fin 2) = (i 0).val / 3000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 3000 ≤ (i 0).val ∧ (i 0).val < win3_2.index t (0 : Fin 2) * 3000 + 3000; omega
  | ⟨1, _⟩ => show win3_2.index t (1 : Fin 2) * 64 ≤ (i 1).val ∧ (i 1).val < win3_2.index t (1 : Fin 2) * 64 + 64; omega

/-- The result array after the launch, from any entry contents `V`. -/
theorem final (c : Dev nD) : (dat3 V c).arrAt 2 cfg3.N = G (V c main_v14) (V c main_v4) :=
  (dat3 V c).arrAt_eq_of_cover 2 (G (V c main_v14) (V c main_v4)) (fun t _ => flushed_eq V c t) cover

end Cert.KernelIdeal.Region3

end
-- ==== Proof.Region4.lean ====
/-
  The last launch adds the bias row to every row of the aggregated features.  The launch runs over 50 blocks of
  2000 rows; point t loads rows [2000 t, 2000 t + 2000) of the aggregate (64 columns) and the whole bias row, and
  stores their sum into the same rows of the result.  The blocks tile the 100000 rows, so the result array is, at
  every index (r, q), the aggregate at (r, q) plus the bias at (0, q).
-/
import proofs.«429833_j50173807952427_1_alg».proof.Proof.Gen.KernelIdeal.Frame
import proofs.«429833_j50173807952427_1_alg».proof.Proof.Gen.ReferenceIdeal.Read
import Idealize.ShloMosaic.Lib.Pipeline.Value
import Idealize.ShloMosaic.Lib.ValueIdx

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat)
open Cert.ReferenceIdeal.Read (idx_main_v41)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The result as one function of the two arrays the launch reads: entry (r, q) is the aggregate's entry (r, q) plus
    the bias row's entry (0, q). -/
def G (a : S100000x64.Idx → Elt F .f32) (b : S1x64.Idx → Elt F .f32) : S100000x64.Idx → Elt F .f32 :=
  fun i => FloatOps.addf (a i) (b (idx_main_v41 i))

/-- The bias row's entry that column q of a block reads: (0, q). -/
abbrev rowIdx (j : S2000x64.Idx) : S1x64.Idx := fun a => match a with
  | ⟨0, _⟩ => ⟨0, Nat.one_pos⟩
  | ⟨1, _⟩ => ⟨(j 1).val, (j 1).isLt⟩

/-- The body's value at an entry (p, q) of its block: the loaded block's entry plus the bias row's entry (0, q)
    (the two shape casts are identities and the broadcast repeats the one row). -/
theorem pay_apply (x0 : Vec F S2000x64 .f32) (x1 : Vec F S1x64 .f32) (j : S2000x64.Idx) :
    k4_pay1 x0 x1 j = FloatOps.addf (x0 j) (x1 (rowIdx j)) := by
  show FloatOps.addf (shapeCast S2000x64 x0 shapeCasts_S2000x64_S2000x64 j)
    (broadcastTo S2000x64 (shapeCast S1x64 x1 shapeCasts_S1x64_S1x64) broadcasts_S1x64_S2000x64 j) = _
  rw [shapeCast_self, shapeCast_self]
  refine congrArg _ (broadcastTo_apply x1 broadcasts_S1x64_S2000x64 j _ fun a => ?_)
  match a with
  | ⟨0, _⟩ => show (0 : Nat) = if (1 : Nat) = 1 then 0 else _; rw [if_pos rfl]
  | ⟨1, _⟩ => show (j 1).val = if (64 : Nat) = 1 then 0 else (j 1).val; rw [if_neg (by decide)]

/-- The printed index maps over the 50 points: the aggregate's block moves with the result's, the bias row stays,
    and the result's block index is (t, 0). -/
theorem idx_facts : ∀ t : Fin cfg4.N, win4_0.index t (0 : Fin 2) = win4_2.index t (0 : Fin 2)
    ∧ win4_0.index t (1 : Fin 2) = win4_2.index t (1 : Fin 2)
    ∧ win4_1.index t (0 : Fin 2) = 0 ∧ win4_1.index t (1 : Fin 2) = 0
    ∧ win4_2.index t (0 : Fin 2) ≤ 49 ∧ win4_2.index t (1 : Fin 2) = 0 :=
  (by decide +kernel : ∀ t : Fin grid4.N, _)

/-- Every block row is some point's. -/
theorem idx_onto : ∀ q0 : Fin 50, ∃ t : Fin cfg4.N, win4_2.index t = ![q0.val, 0] :=
  (by decide +kernel : ∀ q0 : Fin 50, ∃ t : Fin grid4.N, win4_2.index t = ![q0.val, 0])

/-- What point t writes back is block t of `G` of the arrays as the launch finds them. -/
theorem flushed_eq (c : Dev nD) (t : Fin cfg4.N) :
    (dat4 V c).flushed 2 t = ((cfg4.win 2).blk t).view.read (Elt F) (G (V c main_v18) (V c main_v6)) := by
  show (cfg4.win 2).cut (grid4.coords t) ((dat4 V c).after 2 t) = _
  rw [after4_2]
  unfold out4_2
  rw [View.canon_unit_zero hz]
  simp only [View.ld_unit_zero (S := S2000x64) hz, View.ld_unit_zero (S := S1x64) hz]
  obtain ⟨e0, e1, e2, e3, e4, e5⟩ := idx_facts t
  funext j
  show k4_pay1 (iblk4 V c 0 t) (iblk4 V c 1 t) j = G (V c main_v18) (V c main_v6) (((cfg4.win 2).blk t).view.emb j)
  refine (pay_apply (iblk4 V c 0 t) (iblk4 V c 1 t) j).trans ?_
  have h0 : ((cfg4.win 0).blk t).view.emb j = ((cfg4.win 2).blk t).view.emb j := by
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb (rowIdx j) = idx_main_v41 (((cfg4.win 2).blk t).view.emb j) := by
    funext a; apply Fin.ext
    match a with
    | ⟨0, _⟩ => show win4_1.index t (0 : Fin 2) * 1 + 1 * 0 = 0; omega
    | ⟨1, _⟩ => show win4_1.index t (1 : Fin 2) * 64 + 1 * (j 1).val = win4_2.index t (1 : Fin 2) * 64 + 1 * (j 1).val; omega
  have hA : iblk4 V c 0 t j = V c main_v18 (((cfg4.win 2).blk t).view.emb j) := by
    show V c main_v18 (((cfg4.win 0).blk t).view.emb j) = _
    exact congrArg _ h0
  have hB : iblk4 V c 1 t (rowIdx j) = V c main_v6 (idx_main_v41 (((cfg4.win 2).blk t).view.emb j)) := by
    show V c main_v6 (((cfg4.win 1).blk t).view.emb (rowIdx j)) = _
    exact congrArg _ h1
  rw [hA, hB]
  rfl

/-- An index of the result is in point t's block iff each coordinate is in the block's range on its axis. -/
theorem mem_blk (t : Fin cfg4.N) (i : S100000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v19).slice (win4_2.rect t)).set ↔ _
  rw [View.set_slice_whole, Rect.mem_set_unit]
  exact Iff.rfl

/-- The 50 blocks of 2000 rows tile the 100000 rows: row r is in the block of point r / 2000. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := idx_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 64 ≤ (i 1).val ∧ (i 1).val < win4_2.index t (1 : Fin 2) * 64 + 64; omega

/-- The result array after the launch, from any entry contents `V`. -/
theorem final (c : Dev nD) : (dat4 V c).arrAt 2 cfg4.N = G (V c main_v18) (V c main_v6) :=
  (dat4 V c).arrAt_eq_of_cover 2 (G (V c main_v18) (V c main_v6)) (fun t _ => flushed_eq V c t) cover

end Cert.KernelIdeal.Region4

end
-- ==== Proof.IndexWord.lean ====
/-
  The row index of a take, as a 32-bit word.  A row number `a` of an array of 100000 rows may be given from the
  end (`-100000 ≤ a < 0` names row `a + 100000`); the wrapped word `if a < 0 then a + 100000 else a` then lies in
  `[0, 99999]`, which is what the take's own range test asks before it reads the row rather than filling it.
-/
import Idealize.ShloMosaic.Lib.StableHlo.Predicate
import Idealize.ShloMosaic.PureOps.Float

namespace Cert.IndexWord

open Idealize.ShloMosaic Idealize.ShloMosaic.StableHlo.Predicate

/-- A row number counted from the end is moved to the front: `a + 100000` for a negative `a`. -/
def wrap (a : BitVec 32) : BitVec 32 := Scalar.select (IntOp.cmpi .slt a 0#32) (IntOp.addi a 100000#32) a

/-- The signed value of the wrapped word, by the sign of `a`; in the negative case the sum does not overflow
    because `a ≥ -100000`. -/
theorem wrap_toInt (a : BitVec 32) (hlo : -100000 ≤ a.toInt) (hhi : a.toInt < 100000) :
    0 ≤ (wrap a).toInt ∧ (wrap a).toInt ≤ 99999 := by
  unfold wrap
  by_cases hneg : a.toInt < 0
  · have hc : IntOp.cmpi .slt a 0#32 = 1#1 := by
      simp only [IntOp.cmpi, ofBool_eq_one_iff, BitVec.slt, decide_eq_true_eq]
      simpa using hneg
    rw [hc]
    have hs : Scalar.select 1#1 (IntOp.addi a 100000#32) a = IntOp.addi a 100000#32 := if_pos rfl
    rw [hs]
    have hadd : (IntOp.addi a 100000#32).toInt = a.toInt + 100000 := by
      unfold IntOp.addi
      rw [BitVec.toInt_add]
      have h1 : (100000#32 : BitVec 32).toInt = 100000 := by decide
      rw [h1]
      apply Int.bmod_eq_of_le <;> omega
    rw [hadd]
    omega
  · have hc : IntOp.cmpi .slt a 0#32 = 0#1 := by
      have : ¬ (IntOp.cmpi .slt a 0#32 = 1#1) := by
        simp only [IntOp.cmpi, ofBool_eq_one_iff, BitVec.slt, decide_eq_true_eq]
        simpa using hneg
      rcases BitVec.eq_zero_or_eq_one (IntOp.cmpi .slt a 0#32) with h0 | h1
      · exact h0
      · exact absurd h1 this
    rw [hc]
    have hs : Scalar.select 0#1 (IntOp.addi a 100000#32) a = a := if_neg (by decide)
    rw [hs]
    omega

/-- The take's range test `0 ≤ w ∧ w ≤ 99999` passes at the wrapped word of an admissible row number. -/
theorem wrap_inRange (a : BitVec 32) (hlo : -100000 ≤ a.toInt) (hhi : a.toInt < 100000) :
    IntOp.andi (IntOp.cmpi .sge (wrap a) 0#32) (IntOp.cmpi .sle (wrap a) 99999#32) = 1#1 := by
  obtain ⟨h0, h1⟩ := wrap_toInt a hlo hhi
  have e0 : IntOp.cmpi .sge (wrap a) 0#32 = 1#1 := by
    simp only [IntOp.cmpi, ofBool_eq_one_iff, BitVec.sle, decide_eq_true_eq]
    simpa using h0
  have e1 : IntOp.cmpi .sle (wrap a) 99999#32 = 1#1 := by
    simp only [IntOp.cmpi, ofBool_eq_one_iff, BitVec.sle, decide_eq_true_eq]
    have : (99999#32 : BitVec 32).toInt = 99999 := by decide
    rw [this]; exact h1
  rw [e0, e1]
  decide

end Cert.IndexWord
-- ==== Proof.TakeFill.lean ====
/-
  The take of rows under admissible row numbers.

  A row number `a` of an array of 100000 rows is admissible when `-100000 ≤ a < 100000`: it names a row, counted
  from the front or from the end.  The wrapped number then lies in `[0, 99999]`, so the take's range test passes at
  every edge, the select between the gathered row and the fill constant always takes the gathered row, and the take
  with fill is the plain gather at the wrapped row numbers.
-/
import proofs.«429833_j50173807952427_1_alg».proof.Proof.HostOps
import proofs.«429833_j50173807952427_1_alg».proof.Proof.IndexWord
import Idealize.ShloMosaic.Lib.ReduceAll
import Idealize.ShloMosaic.Lib.Pipeline.Value
import Idealize.ShloMosaic.Lib.ValueIdx

noncomputable section

namespace Cert.KernelIdeal.TakeFill

open Cert.KernelIdeal Cert.KernelIdeal.Gen Cert.KernelIdeal.HostOps Idealize.ShloMosaic

variable {F : FTy → Type} [FloatOps F]

/-- Every source row number names a row, counted from the front or from the end. -/
def Admissible (src : IVec S600000 32) : Prop := ∀ e : S600000.Idx, -100000 ≤ (src e).toInt ∧ (src e).toInt < 100000

/-- A left fold by `and` that starts at 1 and meets only 1s is 1. -/
theorem foldl_andi_one {ι : Type} (f : ι → BitVec 1) (hf : ∀ n, f n = 1#1) :
    ∀ (l : List ι) (init : BitVec 1), init = 1#1 → l.foldl (fun r n => IntOp.andi r (f n)) init = 1#1
  | [], _, hi => hi
  | a :: l, init, hi => by
    rw [List.foldl_cons]
    exact foldl_andi_one f hf l _ (IntOp.andi_eq_one.2 ⟨hi, hf a⟩)

/-- The edge whose row number entry `(e, 0)` of the column holds. -/
abbrev edgeOf (i : S600000x1.Idx) : S600000.Idx := fun a => match a with
  | ⟨0, _⟩ => ⟨(i 0).val, (i 0).isLt⟩

/-- Entry `(e, 0)` of the column of wrapped row numbers is the wrapped word of edge `e`'s row number. -/
theorem wrapIdx_apply (src : IVec S600000 32) (i : S600000x1.Idx) :
    wrapIdx src i = Cert.IndexWord.wrap (src (edgeOf i)) := by
  unfold wrapIdx
  rw [broadcastInDim_apply _ bcast_S600000_S600000x1_0 _ i (edgeOf i) (fun a => match a with
    | ⟨0, _⟩ => by show (i 0).val = if (600000 : Nat) = 1 then 0 else (i 0).val; rw [if_neg (by decide)])]
  rfl

/-- The range test passes at every edge: each of the (one) words reduced into bit `e` is the test
    `0 ≤ w ∧ w ≤ 99999` of a wrapped admissible row number. -/
theorem mask_one (src : IVec S600000 32) (h : Admissible src) (e : S600000.Idx) : inRangeMask (wrapIdx src) e = 1#1 := by
  unfold inRangeMask
  rw [Host.reduce_eq_foldl]
  refine foldl_andi_one _ (fun i => ?_) _ _ rfl
  show IntOp.andi (IntOp.cmpi .sge (wrapIdx src i) 0#32) (IntOp.cmpi .sle (wrapIdx src i) 99999#32) = 1#1
  rw [wrapIdx_apply]
  exact Cert.IndexWord.wrap_inRange _ (h _).1 (h _).2

/-- Under admissible row numbers the take with fill of a 128-column array is the gather at the wrapped numbers. -/
theorem takeRows128_eq (x : FVec F S100000x128 .f32) (src : IVec S600000 32) (h : Admissible src) :
    takeRows128 x src = Host.gather gather_S100000x128_S600000x1_S600000x128_1_0_n_n_0_1_1128 x (wrapIdx src) := by
  funext i
  unfold takeRows128
  rw [ValueIdx.select_apply]
  rw [broadcastInDim_apply _ bcast_S600000_S600000x128_0 (inRangeMask (wrapIdx src)) i
    (fun a => match a with | ⟨0, _⟩ => ⟨(i 0).val, (i 0).isLt⟩) (fun a => match a with
    | ⟨0, _⟩ => by show (i 0).val = if (600000 : Nat) = 1 then 0 else (i 0).val; rw [if_neg (by decide)])]
  rw [mask_one src h, ValueIdx.select_one]

/-- The same for a 64-column array. -/
theorem takeRows64_eq (x : FVec F S100000x64 .f32) (src : IVec S600000 32) (h : Admissible src) :
    takeRows64 x src = Host.gather gather_S100000x64_S600000x1_S600000x64_1_0_n_n_0_1_164 x (wrapIdx src) := by
  funext i
  unfold takeRows64
  rw [ValueIdx.select_apply]
  rw [broadcastInDim_apply _ bcast_S600000_S600000x64_0 (inRangeMask (wrapIdx src)) i
    (fun a => match a with | ⟨0, _⟩ => ⟨(i 0).val, (i 0).isLt⟩) (fun a => match a with
    | ⟨0, _⟩ => by show (i 0).val = if (600000 : Nat) = 1 then 0 else (i 0).val; rw [if_neg (by decide)])]
  rw [mask_one src h, ValueIdx.select_one]

end Cert.KernelIdeal.TakeFill

end
-- ==== Proof.Chain.lean ====
/-
  The value of the program, stage by stage.

  Read at F := Ideal, the buffer each launch or host operation produces is the same function of the argument arrays
  as the corresponding stage of the reference: x W1 (a sum over the 128 columns, block by block in the launch, in one
  product in the reference); its rows taken at the source nodes (the take's fill never applies, the source numbers
  being admissible, so it is the plain gather both programs print); each row scaled by its edge's weight; the rows
  added up at the destination nodes (the same scatter-add of equal operands); the bias, the cut at zero and the
  product with W2; and the second round of take, scale and scatter-add, with the last bias added.  Each stage is
  stated as "the buffer at the boundary after it is the reference's stage value" and rests on the stage before.
-/
import proofs.«429833_j50173807952427_1_alg».proof.Proof.Carry
import proofs.«429833_j50173807952427_1_alg».proof.Proof.HostStages
import proofs.«429833_j50173807952427_1_alg».proof.Proof.CarryTable
import proofs.«429833_j50173807952427_1_alg».proof.Proof.Region0
import proofs.«429833_j50173807952427_1_alg».proof.Proof.Region1
import proofs.«429833_j50173807952427_1_alg».proof.Proof.Region2
import proofs.«429833_j50173807952427_1_alg».proof.Proof.Region3
import proofs.«429833_j50173807952427_1_alg».proof.Proof.Region4
import proofs.«429833_j50173807952427_1_alg».proof.Proof.TakeFill
import proofs.«429833_j50173807952427_1_alg».proof.Proof.Gen.ReferenceIdeal.Read
import Idealize.ShloMosaic.Lib.StableHlo.Run
import Idealize.ShloMosaic.Lib.Pipeline.Value
import Idealize.ShloMosaic.PureOps.Ideal

set_option maxRecDepth 16384

noncomputable section

namespace Cert.KernelIdeal.Chain

open Cert.KernelIdeal Cert.KernelIdeal.Gen Cert.KernelIdeal.HostOps Cert.KernelIdeal.Carry Cert.KernelIdeal.TakeFill
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

/-- The first launch leaves x W1: entry (r, q) is the sum over k of x (r, k) W1 (k, q), which is the reference's product. -/
theorem stage_h0 : W2 m ρ c (Proc.devRef .tc main_v7) = val_main_v0 (F := Ideal) (m ((c : Thread nD τ).loc main_arg0)) (m ((c : Thread nD τ).loc main_arg3)) := by
  refine (W2_arr m ρ c 2).trans ((Region0.final (V1 m ρ) c).trans ?_)
  show Region0.G (W1 m ρ c (Proc.devRef .tc main_arg0)) (W1 m ρ c (Proc.devRef .tc main_arg3)) = _
  rw [W1_arg0, W1_arg3]
  funext i
  exact (val_main_v0_apply _ _ i).symm

/-- The first take: the rows of x W1 at the source nodes.  The row numbers are admissible, so the range test
    passes and the take is the gather, the one the reference prints, of equal operands. -/
theorem stage_take1 (hadm : Admissible (srcOf (m ((c : Thread nD τ).loc main_arg1)))) :
    W3 m ρ c (Proc.devRef .tc main_v8) = val_main_v11 (F := Ideal) (m ((c : Thread nD τ).loc main_arg0)) (m ((c : Thread nD τ).loc main_arg1)) (m ((c : Thread nD τ).loc main_arg3)) := by
  rw [HostStages.take1_eq, stage_h0, W2_v1, takeRows128_eq _ _ hadm]
  rfl

/-- The first scale launch: the taken rows times the edge weights.  The launch reads the weight as a column (a
    reshape of the weight vector), the reference broadcasts the vector to a column; both hold the weight of edge e
    at (e, 0). -/
theorem stage_msg1 (hadm : Admissible (srcOf (m ((c : Thread nD τ).loc main_arg1)))) :
    W4 m ρ c (Proc.devRef .tc main_v9) = val_main_v14 (F := Ideal) (m ((c : Thread nD τ).loc main_arg0)) (m ((c : Thread nD τ).loc main_arg1)) (m ((c : Thread nD τ).loc main_arg2)) (m ((c : Thread nD τ).loc main_arg3)) := by
  refine (W4_arr m ρ c 2).trans ((Region1.final (V3 m ρ) c).trans ?_)
  show Region1.G (W3 m ρ c (Proc.devRef .tc main_v8)) (W3 m ρ c (Proc.devRef .tc main_v4)) = _
  rw [stage_take1 m ρ c hadm, W3_v4]
  funext i
  rw [val_main_v14_apply, val_main_v13_apply, val_main_v12_apply]
  unfold Region1.G
  exact congrArg (FloatOps.mulf (F := Ideal) (φ := .f32) _) (HostStages.wcol128_apply (F := Ideal) (m ((c : Thread nD τ).loc main_arg2)) i)

/-- The first scatter-add: the same operation in both programs, of equal operands (zeros, the destination nodes as
    a column, the scaled rows). -/
theorem stage_agg1 (hadm : Admissible (srcOf (m ((c : Thread nD τ).loc main_arg1)))) :
    W5 m ρ c (Proc.devRef .tc main_v12) = val_main_v17 (F := Ideal) (m ((c : Thread nD τ).loc main_arg0)) (m ((c : Thread nD τ).loc main_arg1)) (m ((c : Thread nD τ).loc main_arg2)) (m ((c : Thread nD τ).loc main_arg3)) := by
  rw [HostStages.agg1_eq, W4_v3, stage_msg1 m ρ c hadm]
  rfl

/-- The second matmul launch: max (agg + b1, 0) W2, entry (r, q) a sum over the 128 columns; the launch reads the
    bias as a row (a reshape of the bias vector), the reference broadcasts the vector; both hold b1 k at (0, k). -/
theorem stage_h2 (hadm : Admissible (srcOf (m ((c : Thread nD τ).loc main_arg1)))) :
    W6 m ρ c (Proc.devRef .tc main_v13) = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ((Region2.final (V5 m ρ) c).trans ?_)
  show Region2.G (W5 m ρ c (Proc.devRef .tc main_v12)) (W5 m ρ c (Proc.devRef .tc main_v5)) (W5 m ρ c (Proc.devRef .tc main_arg5)) = _
  rw [stage_agg1 m ρ c hadm, W5_v5, W5_arg5]
  funext i
  rw [val_main_v22_apply]
  unfold Region2.G
  refine Finset.sum_congr rfl fun k _ => ?_
  rw [val_main_v21_apply, val_main_v20_apply, val_main_v19_apply, val_main_v18_apply, val_main_call0_v0_apply,
    val_main_call0_cst_apply]
  exact congrArg (fun z => FloatOps.maximumf (F := Ideal) (φ := .f32) (FloatOps.addf (F := Ideal) (φ := .f32) _ z) _ * _)
    (HostStages.brow128_apply (F := Ideal) (m ((c : Thread nD τ).loc main_arg4)) (lidx_main_v22 i k))

/-- The second take: the rows of the second product at the source nodes. -/
theorem stage_take2 (hadm : Admissible (srcOf (m ((c : Thread nD τ).loc main_arg1)))) :
    W7 m ρ c (Proc.devRef .tc main_v14) = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [HostStages.take2_eq, stage_h2 m ρ c hadm, W6_v1, takeRows64_eq _ _ hadm]
  rfl

/-- The second scale launch. -/
theorem stage_msg2 (hadm : Admissible (srcOf (m ((c : Thread nD τ).loc main_arg1)))) :
    W8 m ρ c (Proc.devRef .tc main_v15) = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ((Region3.final (V7 m ρ) c).trans ?_)
  show Region3.G (W7 m ρ c (Proc.devRef .tc main_v14)) (W7 m ρ c (Proc.devRef .tc main_v4)) = _
  rw [stage_take2 m ρ c hadm, W7_v4]
  funext i
  rw [val_main_v36_apply, val_main_v35_apply, val_main_v34_apply]
  unfold Region3.G
  exact congrArg (FloatOps.mulf (F := Ideal) (φ := .f32) _) (HostStages.wcol64_apply (F := Ideal) (m ((c : Thread nD τ).loc main_arg2)) i)

/-- The second scatter-add. -/
theorem stage_agg2 (hadm : Admissible (srcOf (m ((c : Thread nD τ).loc main_arg1)))) :
    W9 m ρ c (Proc.devRef .tc main_v18) = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [HostStages.agg2_eq, W8_v3, stage_msg2 m ρ c hadm]
  rfl

/-- The last launch adds the second bias: the program's result is the reference's. -/
theorem stage_out (hadm : Admissible (srcOf (m ((c : Thread nD τ).loc main_arg1)))) :
    W10 m ρ c (Proc.devRef .tc main_v19) = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ((Region4.final (V9 m ρ) c).trans ?_)
  show Region4.G (W9 m ρ c (Proc.devRef .tc main_v18)) (W9 m ρ c (Proc.devRef .tc main_v6)) = _
  rw [stage_agg2 m ρ c hadm, W9_v6]
  funext i
  rw [val_main_v42_apply, val_main_v41_apply, val_main_v40_apply]
  unfold Region4.G
  exact congrArg (FloatOps.addf (F := Ideal) (φ := .f32) _) (HostStages.brow64_apply (F := Ideal) (m ((c : Thread nD τ).loc main_arg6)) i)

end Cert.KernelIdeal.Chain

end
-- ==== Proof.PreDecode.lean ====
/-
  The precondition read back: every source row number is admissible.

  The printed precondition is a conjunction of one-bit words; its last conjunct is the reduction by `and`, over all
  600000 edges, of the test `-100000 ≤ src e ∧ src e < 100000` on row 0 of the edge list.  The whole conjunction
  being 1 makes that reduction 1, a reduction by `and` that is 1 met a 1 at every edge, and a comparison that came
  out 1 is the order of the signed values of the words it compares.
-/
import proofs.«429833_j50173807952427_1_alg».proof.Pre_finite_inputs
import proofs.«429833_j50173807952427_1_alg».proof.Proof.Gen.Pre_finite_inputs
import proofs.«429833_j50173807952427_1_alg».proof.Proof.TakeFill
import Idealize.ShloMosaic.Lib.ReduceAll
import Idealize.ShloMosaic.Lib.StableHlo.Predicate

noncomputable section

namespace Cert.KernelIdeal.PreDecode

open Idealize.ShloMosaic

variable {F : FTy → Type} [FloatOps F]

/-- The shape of rank 0 has one index. -/
instance subsingleton_scalar_idx : Subsingleton Cert.Pre_finite_inputs.S_.Idx := ⟨fun a b => funext fun d => d.elim0⟩

/-- Under the precondition every source row number lies in `[-100000, 100000)`. -/
theorem src_admissible (x0 : FVec F Cert.Pre_finite_inputs.S100000x128 .f32) (x1 : IVec Cert.Pre_finite_inputs.S2x600000 32) (x2 : FVec F Cert.Pre_finite_inputs.S600000 .f32) (x3 : FVec F Cert.Pre_finite_inputs.S128x128 .f32) (x4 : FVec F Cert.Pre_finite_inputs.S128 .f32) (x5 : FVec F Cert.Pre_finite_inputs.S128x64 .f32) (x6 : FVec F Cert.Pre_finite_inputs.S64 .f32)
    (h : Cert.Pre_finite_inputs.fn (F := F) x0 x1 x2 x3 x4 x5 x6 = fun _ => 1#1) :
    Cert.KernelIdeal.TakeFill.Admissible (Cert.KernelIdeal.HostOps.srcOf x1) := by
  have h0 := congrFun h ValueIdx.ix0
  dsimp only [Cert.Pre_finite_inputs.fn, Cert.Pre_finite_inputs.fn_part1, Cert.Pre_finite_inputs.fn_part2] at h0
  -- the last conjunct: the reduction over the edges is 1
  have h38 := (IntOp.andi_eq_one.1 h0).2
  intro e
  -- so the test is 1 at edge `e`
  have he := Host.reduce_andi_all _ _ _ _ _ h38 e
  obtain ⟨hge, hlt⟩ := IntOp.andi_eq_one.1 he
  have hge' : IntOp.cmpi .sge (Cert.KernelIdeal.HostOps.srcOf x1 e) 4294867296#32 = 1#1 := hge
  have hlt' : IntOp.cmpi .slt (Cert.KernelIdeal.HostOps.srcOf x1 e) 100000#32 = 1#1 := hlt
  simp only [IntOp.cmpi, Idealize.ShloMosaic.StableHlo.Predicate.ofBool_eq_one_iff, BitVec.sle, BitVec.slt,
    decide_eq_true_eq] at hge' hlt'
  have c1 : (4294867296#32 : BitVec 32).toInt = -100000 := by decide
  have c2 : (100000#32 : BitVec 32).toInt = 100000 := by decide
  rw [c1] at hge'
  rw [c2] at hlt'
  exact ⟨hge', hlt'⟩

end Cert.KernelIdeal.PreDecode

end
-- ==== Proof.lean ====
/-
  Two layers of graph convolution, out = Â (relu (Â (x W1) + b1) W2) + b2, where Â h adds, at each destination node,
  the rows h[src e] scaled by the weight of edge e.  The kernel runs the two dense products, the two scalings and
  the last bias addition as launches over row blocks, and takes rows and adds them up with host operations; the
  reference is the same chain of host operations throughout.  Read over the extended reals the two programs compute
  the same function of the arguments, stage by stage (a dense product is a sum over the 128 columns whether it is
  done block by block or at once; a change of float format is the identity), on every input whose source node
  numbers name a row of the feature array — counted from the front or, negative, from the end —, which is where
  the reference's own row indexing is in range; there the kernel's take, which would fill a row it cannot find, is
  the reference's plain gather.  The three frames are the generated ones (the reference's is its run with the value
  dropped); the ideal pass rewrote nothing, so the kernel's idealization is its own text.
-/
import proofs.«429833_j50173807952427_1_alg».proof.Defs
import proofs.«429833_j50173807952427_1_alg».proof.Proof.Gen.Kernel
import proofs.«429833_j50173807952427_1_alg».proof.Proof.Gen.Kernel.Skeleton
import proofs.«429833_j50173807952427_1_alg».proof.Proof.Gen.Kernel.Launch
import proofs.«429833_j50173807952427_1_alg».proof.Proof.Gen.Kernel.Points
import proofs.«429833_j50173807952427_1_alg».proof.Proof.Gen.Kernel.Frame
import proofs.«429833_j50173807952427_1_alg».proof.Proof.Gen.KernelIdeal
import proofs.«429833_j50173807952427_1_alg».proof.Proof.Gen.KernelIdeal.Skeleton
import proofs.«429833_j50173807952427_1_alg».proof.Proof.Gen.KernelIdeal.Launch
import proofs.«429833_j50173807952427_1_alg».proof.Proof.Gen.KernelIdeal.Points
import proofs.«429833_j50173807952427_1_alg».proof.Proof.Gen.KernelIdeal.Frame
import proofs.«429833_j50173807952427_1_alg».proof.Proof.Gen.ReferenceIdeal
import proofs.«429833_j50173807952427_1_alg».proof.Proof.Gen.Pre_finite_inputs
import proofs.«429833_j50173807952427_1_alg».proof.Proof.Gen.ReferenceIdeal.Run
import proofs.«429833_j50173807952427_1_alg».proof.Proof.Gen.ReferenceIdeal.Read
import proofs.«429833_j50173807952427_1_alg».proof.Proof.KRun
import proofs.«429833_j50173807952427_1_alg».proof.Proof.Chain
import proofs.«429833_j50173807952427_1_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its frame is its run with the value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result buffer at the reference's last stage of the (agreeing) arguments: the kernel's
    by the stage-by-stage reading of the fold through its segments, under the admissible source numbers the
    precondition gives; the reference's by its run, whose term is that stage. -/
theorem algebraic : Cert.algebraic_KernelIdeal_ReferenceIdeal := by
  intro m ρ m' ρ' hpre hagree
  have hadm : ∀ c : Dev Cert.KernelIdeal.nD, Cert.KernelIdeal.TakeFill.Admissible
      (Cert.KernelIdeal.HostOps.srcOf (m ((c.tc : Thread Cert.KernelIdeal.nD Cert.KernelIdeal.τ).loc Cert.KernelIdeal.main_arg1))) :=
    fun c => Cert.KernelIdeal.PreDecode.src_admissible _ _ _ _ _ _ _ (hpre c)
  refine ⟨fun c => Cert.ReferenceIdeal.Read.val_main_v42 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Chain.stage_out m ρ c (hadm c)), (h c).2⟩)
      (Cert.KernelIdeal.ValRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v42_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
